-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x512 : Shape := ⟨3, ![8, 2048, 512]⟩
abbrev S_ : Shape := ⟨0, ![]⟩

class Facts : Prop where
  bcast_S_S8x2048x512 : S_.BroadcastsInDim S8x2048x512 (![] : Fin 0 → Fin S8x2048x512.rank)
  reducesTo_S8x2048x512_S_d0_1_2 : S8x2048x512.ReducesTo [0, 1, 2] S_
  h_S_ : 0 < S_.numel

variable [Facts]

def fn {F : FTy → Type} [FloatOps F] (main_arg0 : FVec F S8x2048x512 .f32) (main_arg1 : FVec F S8x2048x512 .f32) : IVec S_ 1 :=
  let main_v0 : FVec F S8x2048x512 .f32 := Host.absf main_arg0
  let main_cst : FVec F S_ .f32 := constant S_ .f32 0x7F800000#32
  let main_v1 : FVec F S8x2048x512 .f32 := broadcastInDim S8x2048x512 ![] bcast_S_S8x2048x512 main_cst
  let main_v2 : IVec S8x2048x512 1 := cmpf .olt main_v0 main_v1
  let main_c : IVec S_ 1 := constantI S_ 1 1#1
  let main_v3 : IVec S_ 1 := (fun x v => Host.reduce IntOp.andi x v reducesTo_S8x2048x512_S_d0_1_2 h_S_) main_v2 main_c
  let main_v4 : FVec F S8x2048x512 .f32 := Host.absf main_arg1
  let main_cst_0 : FVec F S_ .f32 := constant S_ .f32 0x7F800000#32
  let main_v5 : FVec F S8x2048x512 .f32 := broadcastInDim S8x2048x512 ![] bcast_S_S8x2048x512 main_cst_0
  let main_v6 : IVec S8x2048x512 1 := cmpf .olt main_v4 main_v5
  let main_c_1 : IVec S_ 1 := constantI S_ 1 1#1
  let main_v7 : IVec S_ 1 := (fun x v => Host.reduce IntOp.andi x v reducesTo_S8x2048x512_S_d0_1_2 h_S_) main_v6 main_c_1
  let main_v8 : IVec S_ 1 := andi main_v3 main_v7
  main_v8
-- ==== Kernel.lean ====
abbrev S8x2048x512 : Shape := ⟨3, ![8, 2048, 512]⟩
abbrev S1x2048x512 : Shape := ⟨3, ![1, 2048, 512]⟩
abbrev S1x1024x512 : Shape := ⟨3, ![1, 1024, 512]⟩
abbrev S1x2048x1 : Shape := ⟨3, ![1, 2048, 1]⟩
abbrev S1x2048x1024 : Shape := ⟨3, ![1, 2048, 1024]⟩
abbrev S1x2048 : Shape := ⟨2, ![1, 2048]⟩

abbrev nBuf : Space → Nat
  | .hbm => 3
  | .vmem => 9
  | .smem => 0
  | _ => 0

abbrev bufTy : (tb : Table) → Fin (tcTables nBuf tb) → BufTy
  | .hbm, ⟨0, _⟩ => ⟨S8x2048x512, .f32⟩
  | .hbm, ⟨1, _⟩ => ⟨S8x2048x512, .f32⟩
  | .hbm, ⟨2, _⟩ => ⟨S8x2048x512, .f32⟩
  | .local _ .vmem, ⟨0, _⟩ => ⟨S1x2048x512, .f32⟩
  | .local _ .vmem, ⟨1, _⟩ => ⟨S1x2048x512, .f32⟩
  | .local _ .vmem, ⟨2, _⟩ => ⟨S1x1024x512, .f32⟩
  | .local _ .vmem, ⟨3, _⟩ => ⟨S1x1024x512, .f32⟩
  | .local _ .vmem, ⟨4, _⟩ => ⟨S1x2048x512, .f32⟩
  | .local _ .vmem, ⟨5, _⟩ => ⟨S1x2048x512, .f32⟩
  | .local _ .vmem, ⟨6, _⟩ => ⟨S1x2048x1, .f32⟩
  | .local _ .vmem, ⟨7, _⟩ => ⟨S1x2048x1, .f32⟩
  | .local _ .vmem, ⟨8, _⟩ => ⟨S1x2048x512, .f32⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def k0_cond2 (i : grid0.Coords) : BitVec 1 :=
  let arg1 : BitVec 32 := BitVec.ofNat 32 (i 1).val
  let c1_i32 : BitVec 32 := 1#32
  let v38 : BitVec 1 := Scalar.cmpi .eq arg1 c1_i32
  let v39 : BitVec 32 := Scalar.extui v38
  let c0_i32_30 : BitVec 32 := 0#32
  let v40 : BitVec 1 := Scalar.cmpi .ne v39 c0_i32_30
  v40

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x2048x1_S1x2048x1_0_0_0 : ∀ a, (![0, 0, 0] : Fin 3 → Nat) a + S1x2048x1.size a ≤ S1x2048x1.size a
  h_S1x2048x1 : 0 < S1x2048x1.numel
  shapeCasts_S1x2048x1_S1x2048x1 : S1x2048x1.ShapeCasts S1x2048x1
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S1x2048x512 : S1x2048x512.ShapeCasts S1x2048x512
  inb_S1x1024x512_S1x1024x512_0_0_0 : ∀ a, (![0, 0, 0] : Fin 3 → Nat) a + S1x1024x512.size a ≤ S1x1024x512.size a
  h_S1x1024x512 : 0 < S1x1024x512.numel
  bitsLt_bf16_f32 : FTy.bits .bf16 < FTy.bits .f32
  reduces_S1x2048x1024_S1x2048 : S1x2048x1024.Reduces [2] S1x2048
  shapeCasts_S1x2048_S1x2048x1 : S1x2048.ShapeCasts S1x2048x1
  broadcasts_S1x2048x1_S1x2048x1024 : S1x2048x1.Broadcasts S1x2048x1024
  broadcasts_S1x2048x1_S1x2048x512 : S1x2048x1.Broadcasts S1x2048x512
  dot_S1x2048x512_S1x1024x512_S1x2048x1024_2_2_1_1_0_0_wf : DotDims.WF S1x2048x512 S1x1024x512 S1x2048x1024 [2] [2] [1] [1] [0] [0]
  dot_S1x2048x1024_S1x1024x512_S1x2048x512_2_1_1_2_0_0_wf : DotDims.WF S1x2048x1024 S1x1024x512 S1x2048x512 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x512.size a ≤ S8x2048x512.size a
  hwx0_0 : ∀ i : grid0.Coords, EltTy.bits .f32 = 32 ∨ (Rect.block (s := S8x2048x512) S1x2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x512.size a ≤ S8x2048x512.size a
  hwx0_1 : ∀ i : grid0.Coords, EltTy.bits .f32 = 32 ∨ (Rect.block (s := S8x2048x512) S1x1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x512.size a ≤ S8x2048x512.size a
  hwx0_2 : ∀ i : grid0.Coords, EltTy.bits .f32 = 32 ∨ (Rect.block (s := S8x2048x512) S1x2048x512.size (cc0_transform_2 i) (hinb0_2 i)).WholeWords (EltTy.packing .f32)

variable [Facts₀]

def dot_S1x2048x512_S1x1024x512_S1x2048x1024_2_2_1_1_0_0 : DotDims S1x2048x512 S1x1024x512 S1x2048x1024 where
  lhsContracting := [2]
  rhsContracting := [2]
  lhsNonContracting := [1]
  rhsNonContracting := [1]
  lhsBatch := [0]
  rhsBatch := [0]
  wf := dot_S1x2048x512_S1x1024x512_S1x2048x1024_2_2_1_1_0_0_wf
def dot_S1x2048x1024_S1x1024x512_S1x2048x512_2_1_1_2_0_0 : DotDims S1x2048x1024 S1x1024x512 S1x2048x512 where
  lhsContracting := [2]
  rhsContracting := [1]
  lhsNonContracting := [1]
  rhsNonContracting := [2]
  lhsBatch := [0]
  rhsBatch := [0]
  wf := dot_S1x2048x1024_S1x1024x512_S1x2048x512_2_1_1_2_0_0_wf

abbrev win0_0 : Pipeline.Window sig grid0 :=
  Pipeline.Window.ofSpec (Memref.whole main_arg1) S1x2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2048x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8x2048x512 : Shape := ⟨3, ![8, 2048, 512]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 18
  | .vmem => 0
  | .smem => 0
  | _ => 0

abbrev bufTy : (tb : Table) → Fin (tcTables nBuf tb) → BufTy
  | .hbm, ⟨0, _⟩ => ⟨S8x2048x512, .f32⟩
  | .hbm, ⟨1, _⟩ => ⟨S8x2048x512, .f32⟩
  | .hbm, ⟨2, _⟩ => ⟨S8x2048x2048, .f32⟩
  | .hbm, ⟨3, _⟩ => ⟨S_, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S8x2048x1, .f32⟩
  | .hbm, ⟨9, _⟩ => ⟨S8x2048x2048, .f32⟩
  | .hbm, ⟨10, _⟩ => ⟨S8x2048x2048, .f32⟩
  | .hbm, ⟨11, _⟩ => ⟨S8x2048x2048, .f32⟩
  | .hbm, ⟨12, _⟩ => ⟨S_, .f32⟩
  | .hbm, ⟨13, _⟩ => ⟨S8x2048, .f32⟩
  | .hbm, ⟨14, _⟩ => ⟨S8x2048x1, .f32⟩
  | .hbm, ⟨15, _⟩ => ⟨S8x2048x2048, .f32⟩
  | .hbm, ⟨16, _⟩ => ⟨S8x2048x2048, .f32⟩
  | .hbm, ⟨17, _⟩ => ⟨S8x2048x512, .f32⟩
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x512_S8x2048x512_S8x2048x2048_2_2_1_1_0_0_wf : DotDims.WF S8x2048x512 S8x2048x512 S8x2048x2048 [2] [2] [1] [1] [0] [0]
  dot_S8x2048x2048_S8x2048x512_S8x2048x512_2_1_1_2_0_0_wf : DotDims.WF S8x2048x2048 S8x2048x512 S8x2048x512 [2] [1] [1] [2] [0] [0]

variable [Facts₀]

def dot_S8x2048x512_S8x2048x512_S8x2048x2048_2_2_1_1_0_0 : DotDims S8x2048x512 S8x2048x512 S8x2048x2048 where
  lhsContracting := [2]
  rhsContracting := [2]
  lhsNonContracting := [1]
  rhsNonContracting := [1]
  lhsBatch := [0]
  rhsBatch := [0]
  wf := dot_S8x2048x512_S8x2048x512_S8x2048x2048_2_2_1_1_0_0_wf
def dot_S8x2048x2048_S8x2048x512_S8x2048x512_2_1_1_2_0_0 : DotDims S8x2048x2048 S8x2048x512 S8x2048x512 where
  lhsContracting := [2]
  rhsContracting := [1]
  lhsNonContracting := [1]
  rhsNonContracting := [2]
  lhsBatch := [0]
  rhsBatch := [0]
  wf := dot_S8x2048x2048_S8x2048x512_S8x2048x512_2_1_1_2_0_0_wf

class Facts : Prop extends Facts₀ where

variable [Facts]
-- ==== Proof.Steps.lean ====
/-
  What one grid point of the kernel leaves behind, as values.

  The kernel visits, for each batch element, two points: the first takes keys 0–1023, the second keys 1024–2047.
  Three buffers live across the two points: the running row maximum `m`, the running denominator `l` and the
  running weighted sum `acc`. The FIRST point of a batch element overwrites all three with their starting values
  (`−∞`, `0`, `0`), reads them back, and leaves the update for its key block. The SECOND point finds what the first
  left, leaves the update for its own key block, and then writes the output block `acc · (1 / l)` of the updated
  buffers. Each statement below says which update term a buffer holds after a point, over the blocks `x0` (query rows)
  and `x1` (key rows) the point was given and, at a second point, the three buffers `xs0`, `xs1`, `xs2` as found.
  The update terms are the named payload terms of the kernel body: `k0_pay9` the new maximum, `k0_pay12` the new
  denominator, `k0_pay1` the new weighted sum (over `k0_pay13`, the old sum rescaled, and `k0_pay14`, the weights),
  `k0_pay3` the normalised output; `k0_pay4`, `k0_pay5`, `k0_pay6` are the starting values.
-/
import proofs.«427594_j86251533238989_3_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Steps

open Cert.KernelIdeal Cert.KernelIdeal.Gen

variable {F : FTy → Type} [FloatOps F]

/-- Every store and load of the body starts at the origin of its buffer. -/
theorem hz : (![0, 0, 0] : Fin 3 → Nat) = fun _ => 0 := funext fun a => by fin_cases a <;> rfl

/-! ## A first point: the three buffers are reset, then updated with keys 0–1023 -/

/-- After a first point the maximum buffer holds the new maximum over the starting value `−∞` (the reset, read back). -/
theorem max_first (c : Dev nD) (i : grid0.Coords) (arg2 : Memref sig .tc .vmem S1x2048x512 .f32) (harg2 : arg2.IsWhole) (arg3 : Memref sig .tc .vmem S1x1024x512 .f32) (harg3 : arg3.IsWhole) (arg4 : Memref sig .tc .vmem S1x2048x512 .f32) (harg4 : arg4.IsWhole) (arg5 : Memref sig .tc .vmem S1x2048x1 .f32) (harg5 : arg5.IsWhole) (arg6 : Memref sig .tc .vmem S1x2048x1 .f32) (harg6 : arg6.IsWhole) (arg7 : Memref sig .tc .vmem S1x2048x512 .f32) (harg7 : arg7.IsWhole) (hc0 : cond0_0 i) (hc1 : ¬cond0_1 i)
    (x0 : Vec F S1x2048x512 .f32) (x1 : Vec F S1x1024x512 .f32) :
    sout0_A_0 c i arg2 harg2 arg3 harg3 arg4 harg4 arg5 harg5 arg6 harg6 arg7 harg7 hc0 hc1 x0 x1 = k0_pay2 (k0_pay9 x0 x1 k0_pay4) := by
  unfold sout0_A_0
  rw [View.read_writes_eq_canon _ _ _ (scover0_A_0 c i arg2 harg2 arg3 harg3 arg4 harg4 arg5 harg5 arg6 harg6 arg7 harg7 hc0 hc1 x0 x1)]
  unfold kernelRun0_A
  dsimp only
  sl_unfold_words
  rw [View.canon_cons_unit_zero (S := S1x2048x1) hz]
  simp only [View.readAt_eq_ld, harg2.read_unread, harg3.read_unread, harg4.read_unread, harg5.read_unread, harg6.read_unread, harg7.read_unread,
    View.ld_unit_zero (S := S1x2048x512) hz, View.ld_unit_zero (S := S1x1024x512) hz, View.ld_unit_zero (S := S1x2048x1) hz,
    View.readCov_unit_zero (S := S1x2048x1) _ hz, View.readCov_unit_zero (S := S1x2048x512) _ hz]

/-- After a first point the denominator buffer holds the update over the starting maximum `−∞` and the starting denominator `0`. -/
theorem den_first (c : Dev nD) (i : grid0.Coords) (arg2 : Memref sig .tc .vmem S1x2048x512 .f32) (harg2 : arg2.IsWhole) (arg3 : Memref sig .tc .vmem S1x1024x512 .f32) (harg3 : arg3.IsWhole) (arg4 : Memref sig .tc .vmem S1x2048x512 .f32) (harg4 : arg4.IsWhole) (arg5 : Memref sig .tc .vmem S1x2048x1 .f32) (harg5 : arg5.IsWhole) (arg6 : Memref sig .tc .vmem S1x2048x1 .f32) (harg6 : arg6.IsWhole) (arg7 : Memref sig .tc .vmem S1x2048x512 .f32) (harg7 : arg7.IsWhole) (hc0 : cond0_0 i) (hc1 : ¬cond0_1 i)
    (x0 : Vec F S1x2048x512 .f32) (x1 : Vec F S1x1024x512 .f32) :
    sout0_A_1 c i arg2 harg2 arg3 harg3 arg4 harg4 arg5 harg5 arg6 harg6 arg7 harg7 hc0 hc1 x0 x1 = k0_pay12 x0 x1 k0_pay4 k0_pay4 k0_pay5 := by
  unfold sout0_A_1
  rw [View.read_writes_eq_canon _ _ _ (scover0_A_1 c i arg2 harg2 arg3 harg3 arg4 harg4 arg5 harg5 arg6 harg6 arg7 harg7 hc0 hc1 x0 x1)]
  unfold kernelRun0_A
  dsimp only
  sl_unfold_words
  rw [View.canon_cons_unit_zero (S := S1x2048x1) hz]
  simp only [View.readAt_eq_ld, harg2.read_unread, harg3.read_unread, harg4.read_unread, harg5.read_unread, harg6.read_unread, harg7.read_unread,
    View.ld_unit_zero (S := S1x2048x512) hz, View.ld_unit_zero (S := S1x1024x512) hz, View.ld_unit_zero (S := S1x2048x1) hz,
    View.readCov_unit_zero (S := S1x2048x1) _ hz, View.readCov_unit_zero (S := S1x2048x512) _ hz]

/-- After a first point the weighted-sum buffer holds the update over the starting maximum `−∞` and the starting sum `0`. -/
theorem acc_first (c : Dev nD) (i : grid0.Coords) (arg2 : Memref sig .tc .vmem S1x2048x512 .f32) (harg2 : arg2.IsWhole) (arg3 : Memref sig .tc .vmem S1x1024x512 .f32) (harg3 : arg3.IsWhole) (arg4 : Memref sig .tc .vmem S1x2048x512 .f32) (harg4 : arg4.IsWhole) (arg5 : Memref sig .tc .vmem S1x2048x1 .f32) (harg5 : arg5.IsWhole) (arg6 : Memref sig .tc .vmem S1x2048x1 .f32) (harg6 : arg6.IsWhole) (arg7 : Memref sig .tc .vmem S1x2048x512 .f32) (harg7 : arg7.IsWhole) (hc0 : cond0_0 i) (hc1 : ¬cond0_1 i)
    (x0 : Vec F S1x2048x512 .f32) (x1 : Vec F S1x1024x512 .f32) :
    sout0_A_2 c i arg2 harg2 arg3 harg3 arg4 harg4 arg5 harg5 arg6 harg6 arg7 harg7 hc0 hc1 x0 x1 = k0_pay1 (k0_pay7 x1) (k0_pay13 x0 x1 k0_pay4 k0_pay4 k0_pay6) (k0_pay14 x0 x1 k0_pay4) := by
  unfold sout0_A_2
  rw [View.read_writes_eq_canon _ _ _ (scover0_A_2 c i arg2 harg2 arg3 harg3 arg4 harg4 arg5 harg5 arg6 harg6 arg7 harg7 hc0 hc1 x0 x1)]
  unfold kernelRun0_A
  dsimp only
  sl_unfold_words
  rw [View.canon_cons_unit_zero (S := S1x2048x512) hz]
  simp only [View.readAt_eq_ld, harg2.read_unread, harg3.read_unread, harg4.read_unread, harg5.read_unread, harg6.read_unread, harg7.read_unread,
    View.ld_unit_zero (S := S1x2048x512) hz, View.ld_unit_zero (S := S1x1024x512) hz, View.ld_unit_zero (S := S1x2048x1) hz,
    View.readCov_unit_zero (S := S1x2048x1) _ hz, View.readCov_unit_zero (S := S1x2048x512) _ hz]

/-! ## A second point: the buffers as found, updated with keys 1024–2047; then the output block -/

/-- After a second point the maximum buffer holds the new maximum over the maximum it found. -/
theorem max_second (c : Dev nD) (i : grid0.Coords) (arg2 : Memref sig .tc .vmem S1x2048x512 .f32) (harg2 : arg2.IsWhole) (arg3 : Memref sig .tc .vmem S1x1024x512 .f32) (harg3 : arg3.IsWhole) (arg4 : Memref sig .tc .vmem S1x2048x512 .f32) (harg4 : arg4.IsWhole) (arg5 : Memref sig .tc .vmem S1x2048x1 .f32) (harg5 : arg5.IsWhole) (arg6 : Memref sig .tc .vmem S1x2048x1 .f32) (harg6 : arg6.IsWhole) (arg7 : Memref sig .tc .vmem S1x2048x512 .f32) (harg7 : arg7.IsWhole) (hc0 : ¬cond0_0 i) (hc1 : cond0_1 i)
    (x0 : Vec F S1x2048x512 .f32) (x1 : Vec F S1x1024x512 .f32) (xs0 xs1 : Vec F S1x2048x1 .f32) (xs2 : Vec F S1x2048x512 .f32) :
    sout0_B_0 c i arg2 harg2 arg3 harg3 arg4 harg4 arg5 harg5 arg6 harg6 arg7 harg7 hc0 hc1 x0 x1 xs0 xs1 xs2 = k0_pay2 (k0_pay9 x0 x1 xs0) := by
  unfold sout0_B_0
  rw [View.read_writes_eq_canon _ _ _ (scover0_B_0 c i arg2 harg2 arg3 harg3 arg4 harg4 arg5 harg5 arg6 harg6 arg7 harg7 hc0 hc1 x0 x1 xs0 xs1 xs2)]
  unfold kernelRun0_B
  dsimp only
  sl_unfold_words
  rw [View.canon_unit_zero hz]
  simp only [View.readAt_eq_ld, harg2.read_unread, harg3.read_unread, harg4.read_unread, harg5.read_unread, harg6.read_unread, harg7.read_unread,
    View.ld_unit_zero (S := S1x2048x512) hz, View.ld_unit_zero (S := S1x1024x512) hz, View.ld_unit_zero (S := S1x2048x1) hz,
    View.readCov_unit_zero (S := S1x2048x1) _ hz, View.readCov_unit_zero (S := S1x2048x512) _ hz]

/-- After a second point the denominator buffer holds the update over the maximum and the denominator it found. -/
theorem den_second (c : Dev nD) (i : grid0.Coords) (arg2 : Memref sig .tc .vmem S1x2048x512 .f32) (harg2 : arg2.IsWhole) (arg3 : Memref sig .tc .vmem S1x1024x512 .f32) (harg3 : arg3.IsWhole) (arg4 : Memref sig .tc .vmem S1x2048x512 .f32) (harg4 : arg4.IsWhole) (arg5 : Memref sig .tc .vmem S1x2048x1 .f32) (harg5 : arg5.IsWhole) (arg6 : Memref sig .tc .vmem S1x2048x1 .f32) (harg6 : arg6.IsWhole) (arg7 : Memref sig .tc .vmem S1x2048x512 .f32) (harg7 : arg7.IsWhole) (hc0 : ¬cond0_0 i) (hc1 : cond0_1 i)
    (x0 : Vec F S1x2048x512 .f32) (x1 : Vec F S1x1024x512 .f32) (xs0 xs1 : Vec F S1x2048x1 .f32) (xs2 : Vec F S1x2048x512 .f32) :
    sout0_B_1 c i arg2 harg2 arg3 harg3 arg4 harg4 arg5 harg5 arg6 harg6 arg7 harg7 hc0 hc1 x0 x1 xs0 xs1 xs2 = k0_pay12 x0 x1 xs0 xs0 xs1 := by
  unfold sout0_B_1
  rw [View.read_writes_eq_canon _ _ _ (scover0_B_1 c i arg2 harg2 arg3 harg3 arg4 harg4 arg5 harg5 arg6 harg6 arg7 harg7 hc0 hc1 x0 x1 xs0 xs1 xs2)]
  unfold kernelRun0_B
  dsimp only
  sl_unfold_words
  rw [View.canon_unit_zero hz]
  simp only [View.readAt_eq_ld, harg2.read_unread, harg3.read_unread, harg4.read_unread, harg5.read_unread, harg6.read_unread, harg7.read_unread,
    View.ld_unit_zero (S := S1x2048x512) hz, View.ld_unit_zero (S := S1x1024x512) hz, View.ld_unit_zero (S := S1x2048x1) hz,
    View.readCov_unit_zero (S := S1x2048x1) _ hz, View.readCov_unit_zero (S := S1x2048x512) _ hz]

/-- After a second point the weighted-sum buffer holds the update over the maximum and the sum it found. -/
theorem acc_second (c : Dev nD) (i : grid0.Coords) (arg2 : Memref sig .tc .vmem S1x2048x512 .f32) (harg2 : arg2.IsWhole) (arg3 : Memref sig .tc .vmem S1x1024x512 .f32) (harg3 : arg3.IsWhole) (arg4 : Memref sig .tc .vmem S1x2048x512 .f32) (harg4 : arg4.IsWhole) (arg5 : Memref sig .tc .vmem S1x2048x1 .f32) (harg5 : arg5.IsWhole) (arg6 : Memref sig .tc .vmem S1x2048x1 .f32) (harg6 : arg6.IsWhole) (arg7 : Memref sig .tc .vmem S1x2048x512 .f32) (harg7 : arg7.IsWhole) (hc0 : ¬cond0_0 i) (hc1 : cond0_1 i)
    (x0 : Vec F S1x2048x512 .f32) (x1 : Vec F S1x1024x512 .f32) (xs0 xs1 : Vec F S1x2048x1 .f32) (xs2 : Vec F S1x2048x512 .f32) :
    sout0_B_2 c i arg2 harg2 arg3 harg3 arg4 harg4 arg5 harg5 arg6 harg6 arg7 harg7 hc0 hc1 x0 x1 xs0 xs1 xs2 = k0_pay1 (k0_pay7 x1) (k0_pay13 x0 x1 xs0 xs0 xs2) (k0_pay14 x0 x1 xs0) := by
  unfold sout0_B_2
  rw [View.read_writes_eq_canon _ _ _ (scover0_B_2 c i arg2 harg2 arg3 harg3 arg4 harg4 arg5 harg5 arg6 harg6 arg7 harg7 hc0 hc1 x0 x1 xs0 xs1 xs2)]
  unfold kernelRun0_B
  dsimp only
  sl_unfold_words
  rw [View.canon_unit_zero hz]
  simp only [View.readAt_eq_ld, harg2.read_unread, harg3.read_unread, harg4.read_unread, harg5.read_unread, harg6.read_unread, harg7.read_unread,
    View.ld_unit_zero (S := S1x2048x512) hz, View.ld_unit_zero (S := S1x1024x512) hz, View.ld_unit_zero (S := S1x2048x1) hz,
    View.readCov_unit_zero (S := S1x2048x1) _ hz, View.readCov_unit_zero (S := S1x2048x512) _ hz]

/-- A second point writes, into the output block, the updated weighted sum times the reciprocal of the updated denominator (both read back after their stores). -/
theorem out_second (c : Dev nD) (i : grid0.Coords) (arg2 : Memref sig .tc .vmem S1x2048x512 .f32) (harg2 : arg2.IsWhole) (arg3 : Memref sig .tc .vmem S1x1024x512 .f32) (harg3 : arg3.IsWhole) (arg4 : Memref sig .tc .vmem S1x2048x512 .f32) (harg4 : arg4.IsWhole) (arg5 : Memref sig .tc .vmem S1x2048x1 .f32) (harg5 : arg5.IsWhole) (arg6 : Memref sig .tc .vmem S1x2048x1 .f32) (harg6 : arg6.IsWhole) (arg7 : Memref sig .tc .vmem S1x2048x512 .f32) (harg7 : arg7.IsWhole) (hc0 : ¬cond0_0 i) (hc1 : cond0_1 i)
    (x0 : Vec F S1x2048x512 .f32) (x1 : Vec F S1x1024x512 .f32) (xs0 xs1 : Vec F S1x2048x1 .f32) (xs2 : Vec F S1x2048x512 .f32) :
    out0_B_2 c i arg2 harg2 arg3 harg3 arg4 harg4 arg5 harg5 arg6 harg6 arg7 harg7 hc0 hc1 x0 x1 xs0 xs1 xs2 = k0_pay3 (k0_pay12 x0 x1 xs0 xs0 xs1) (k0_pay1 (k0_pay7 x1) (k0_pay13 x0 x1 xs0 xs0 xs2) (k0_pay14 x0 x1 xs0)) := by
  unfold out0_B_2
  rw [View.read_writes_eq_canon _ _ _ (cover0_B_2 c i arg2 harg2 arg3 harg3 arg4 harg4 arg5 harg5 arg6 harg6 arg7 harg7 hc0 hc1 x0 x1 xs0 xs1 xs2)]
  unfold kernelRun0_B
  dsimp only
  sl_unfold_words
  rw [View.canon_unit_zero hz]
  simp only [View.readAt_eq_ld, harg2.read_unread, harg3.read_unread, harg4.read_unread, harg5.read_unread, harg6.read_unread, harg7.read_unread,
    View.ld_unit_zero (S := S1x2048x512) hz, View.ld_unit_zero (S := S1x1024x512) hz, View.ld_unit_zero (S := S1x2048x1) hz,
    View.readCov_unit_zero (S := S1x2048x1) _ hz, View.readCov_unit_zero (S := S1x2048x512) _ hz]

end Cert.KernelIdeal.Steps

end
-- ==== Proof.LibFinite.lean ====
/-
  General facts on the extended reals and on arrays of extended reals: which
  operations keep a value finite (a real number), and the distributive law of a
  product over a sum inside a finite sum, which holds for finite terms.
-/
import Idealize.ShloMosaic.PureOps.Ideal
import Idealize.ShloMosaic.PureOps.Ideal.Laws
import Idealize.ShloMosaic.Lib.ValueIdx

noncomputable section

namespace Cert.Fin

open Idealize.ShloMosaic
open scoped BigOperators

/-- An extended real is finite when it is (the image of) a real number. -/
def IsFin (x : EReal) : Prop := ∃ r : ℝ, x = (r : EReal)

/-- An array of extended reals is finite when every entry is. -/
def AllFin {ι : Type*} (v : ι → EReal) : Prop := ∀ i, IsFin (v i)

/-- A real number, read as an extended real, is finite. -/
theorem isFin_coe (r : ℝ) : IsFin (r : EReal) := ⟨r, rfl⟩

/-- Zero is finite. -/
theorem isFin_zero : IsFin 0 := ⟨0, rfl⟩

/-- One is finite. -/
theorem isFin_one : IsFin 1 := ⟨1, rfl⟩

/-- A finite value is neither infinity. -/
theorem IsFin.ne_top {x : EReal} (h : IsFin x) : x ≠ ⊤ := by
  obtain ⟨r, rfl⟩ := h; exact EReal.coe_ne_top r

/-- A finite value is neither infinity. -/
theorem IsFin.ne_bot {x : EReal} (h : IsFin x) : x ≠ ⊥ := by
  obtain ⟨r, rfl⟩ := h; exact EReal.coe_ne_bot r

/-- A value that is neither infinity is finite. -/
theorem isFin_of_ne {x : EReal} (ht : x ≠ ⊤) (hb : x ≠ ⊥) : IsFin x := by
  induction x using EReal.rec with
  | bot => exact absurd rfl hb
  | top => exact absurd rfl ht
  | coe r => exact ⟨r, rfl⟩

/-- Finite exactly when neither infinity. -/
theorem isFin_iff {x : EReal} : IsFin x ↔ x ≠ ⊤ ∧ x ≠ ⊥ :=
  ⟨fun h => ⟨h.ne_top, h.ne_bot⟩, fun h => isFin_of_ne h.1 h.2⟩

/-- The sum of two finite values is finite. -/
theorem IsFin.add {a b : EReal} (ha : IsFin a) (hb : IsFin b) : IsFin (a + b) := by
  obtain ⟨r, rfl⟩ := ha; obtain ⟨s, rfl⟩ := hb
  exact ⟨r + s, (EReal.coe_add r s).symm⟩

/-- The product of two finite values is finite. -/
theorem IsFin.mul {a b : EReal} (ha : IsFin a) (hb : IsFin b) : IsFin (a * b) := by
  obtain ⟨r, rfl⟩ := ha; obtain ⟨s, rfl⟩ := hb
  exact ⟨r * s, (EReal.coe_mul r s).symm⟩

/-- The negation of a finite value is finite. -/
theorem IsFin.neg {a : EReal} (ha : IsFin a) : IsFin (-a) := by
  obtain ⟨r, rfl⟩ := ha
  exact ⟨-r, (EReal.coe_neg r).symm⟩

/-- The difference of two finite values is finite. -/
theorem IsFin.sub {a b : EReal} (ha : IsFin a) (hb : IsFin b) : IsFin (a - b) := by
  obtain ⟨r, rfl⟩ := ha; obtain ⟨s, rfl⟩ := hb
  exact ⟨r - s, (EReal.coe_sub r s).symm⟩

/-- The maximum of two finite values is finite. -/
theorem IsFin.max {a b : EReal} (ha : IsFin a) (hb : IsFin b) : IsFin (max a b) := by
  rcases max_choice a b with h | h <;> rw [h] <;> assumption

/-- The minimum of two finite values is finite. -/
theorem IsFin.min {a b : EReal} (ha : IsFin a) (hb : IsFin b) : IsFin (min a b) := by
  rcases min_choice a b with h | h <;> rw [h] <;> assumption

/-- A finite sum of finite values is finite. -/
theorem isFin_sum {ι : Type*} (s : Finset ι) (f : ι → EReal) (h : ∀ i ∈ s, IsFin (f i)) :
    IsFin (∑ i ∈ s, f i) := by
  classical
  induction s using Finset.induction_on with
  | empty => simpa using isFin_zero
  | insert a s ha ih =>
    rw [Finset.sum_insert ha]
    exact (h a (Finset.mem_insert_self a s)).add (ih fun i hi => h i (Finset.mem_insert_of_mem hi))

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite array is the coercion of an array of reals. -/
theorem AllFin.exists_real {ι : Type*} {v : ι → EReal} (h : AllFin v) :
    ∃ r : ι → ℝ, ∀ i, v i = (r i : EReal) := by
  choose r hr using h
  exact ⟨r, hr⟩

/-- Inside a finite sum, a product distributes over a sum of two finite terms. -/
theorem sum_mul_add2 {K : ℕ} (x a b : Fin K → EReal) (hx : AllFin x) (ha : AllFin a) (hb : AllFin b) :
    ∑ k, x k * (a k + b k) = (∑ k, x k * a k) + ∑ k, x k * b k := by
  obtain ⟨xr, hxr⟩ := hx.exists_real
  obtain ⟨ar, har⟩ := ha.exists_real
  obtain ⟨br, hbr⟩ := hb.exists_real
  simp only [hxr, har, hbr, ← EReal.coe_add, ← EReal.coe_mul, ← coe_sum]
  congr 1
  rw [← Finset.sum_add_distrib]
  exact Finset.sum_congr rfl fun k _ => by ring

/-- Inside a finite sum, a product distributes over a sum of three finite terms. -/
theorem sum_mul_add3 {K : ℕ} (x a b c : Fin K → EReal) (hx : AllFin x) (ha : AllFin a) (hb : AllFin b)
    (hc : AllFin c) :
    ∑ k, x k * ((a k + b k) + c k) = ((∑ k, x k * a k) + ∑ k, x k * b k) + ∑ k, x k * c k := by
  obtain ⟨xr, hxr⟩ := hx.exists_real
  obtain ⟨ar, har⟩ := ha.exists_real
  obtain ⟨br, hbr⟩ := hb.exists_real
  obtain ⟨cr, hcr⟩ := hc.exists_real
  simp only [hxr, har, hbr, hcr, ← EReal.coe_add, ← EReal.coe_mul, ← coe_sum]
  congr 1
  rw [← Finset.sum_add_distrib, ← Finset.sum_add_distrib]
  exact Finset.sum_congr rfl fun k _ => by ring

/-- The same distributive law over any finite index type. -/
theorem sum_mul_add3' {ι : Type*} [Fintype ι] (x a b c : ι → EReal) (hx : AllFin x) (ha : AllFin a)
    (hb : AllFin b) (hc : AllFin c) :
    ∑ k, x k * ((a k + b k) + c k) = ((∑ k, x k * a k) + ∑ k, x k * b k) + ∑ k, x k * c k := by
  obtain ⟨xr, hxr⟩ := hx.exists_real
  obtain ⟨ar, har⟩ := ha.exists_real
  obtain ⟨br, hbr⟩ := hb.exists_real
  obtain ⟨cr, hcr⟩ := hc.exists_real
  simp only [hxr, har, hbr, hcr, ← EReal.coe_add, ← EReal.coe_mul, ← coe_sum]
  congr 1
  rw [← Finset.sum_add_distrib, ← Finset.sum_add_distrib]
  exact Finset.sum_congr rfl fun k _ => by ring

/-- The two-term law over any finite index type. -/
theorem sum_mul_add2' {ι : Type*} [Fintype ι] (x a b : ι → EReal) (hx : AllFin x) (ha : AllFin a)
    (hb : AllFin b) :
    ∑ k, x k * (a k + b k) = (∑ k, x k * a k) + ∑ k, x k * b k := by
  obtain ⟨xr, hxr⟩ := hx.exists_real
  obtain ⟨ar, har⟩ := ha.exists_real
  obtain ⟨br, hbr⟩ := hb.exists_real
  simp only [hxr, har, hbr, ← EReal.coe_add, ← EReal.coe_mul, ← coe_sum]
  congr 1
  rw [← Finset.sum_add_distrib]
  exact Finset.sum_congr rfl fun k _ => by ring

/-! ### The float literals -/

/-- The word of `+0.0` denotes zero. -/
theorem ofBits_zero : Ideal.ofBits .f32 0x00000000#32 = 0 := Ideal.ofBits_zero_f32

/-- The word of `1.0` denotes one. -/
theorem ofBits_one : Ideal.ofBits .f32 0x3F800000#32 = 1 := by
  simp [Ideal.ofBits, Ideal.ieee, -EReal.coe_mul]; norm_num

/-- The word of `64.0` denotes the real number sixty-four. -/
theorem ofBits_64 : Ideal.ofBits .f32 0x42800000#32 = ((64 : ℝ) : EReal) := by
  simp [Ideal.ofBits, Ideal.ieee, -EReal.coe_mul]; norm_num

/-- The word nearest `1e-5` denotes the dyadic rational `10995116 / 2^40`. -/
theorem ofBits_eps : Ideal.ofBits .f32 0x3727C5AC#32 = ((10995116 / 2 ^ 40 : ℝ) : EReal) := by
  simp [Ideal.ofBits, Ideal.ieee, -EReal.coe_mul]; norm_num

/-- Zero's word denotes a finite value. -/
theorem isFin_ofBits_zero : IsFin (Ideal.ofBits .f32 0x00000000#32) := ofBits_zero ▸ isFin_zero

/-- One's word denotes a finite value. -/
theorem isFin_ofBits_one : IsFin (Ideal.ofBits .f32 0x3F800000#32) := ofBits_one ▸ isFin_one

/-- Sixty-four's word denotes a finite value. -/
theorem isFin_ofBits_64 : IsFin (Ideal.ofBits .f32 0x42800000#32) := ofBits_64 ▸ isFin_coe _

/-- The small positive constant's word denotes a finite value. -/
theorem isFin_ofBits_eps : IsFin (Ideal.ofBits .f32 0x3727C5AC#32) := ofBits_eps ▸ isFin_coe _

/-- Sixty-four is not zero. -/
theorem ofBits_64_ne_zero : Ideal.ofBits .f32 0x42800000#32 ≠ 0 := by
  rw [ofBits_64]; exact_mod_cast (by norm_num : (64 : ℝ) ≠ 0)

/-- Sixty-four is positive. -/
theorem ofBits_64_pos : 0 < Ideal.ofBits .f32 0x42800000#32 := by
  rw [ofBits_64]; exact_mod_cast (by norm_num : (0 : ℝ) < 64)

/-- One is not zero. -/
theorem ofBits_one_ne_zero : Ideal.ofBits .f32 0x3F800000#32 ≠ 0 := by
  rw [ofBits_one]; exact one_ne_zero

/-- The small constant is positive. -/
theorem ofBits_eps_pos : 0 < Ideal.ofBits .f32 0x3727C5AC#32 := by
  rw [ofBits_eps]; exact_mod_cast (by positivity : (0 : ℝ) < 10995116 / 2 ^ 40)

/-! ### Quotient and reciprocal square root -/

/-- The quotient of a real by a nonzero real, as extended reals, is the real quotient. -/
theorem div_coe_coe (r s : ℝ) (hs : s ≠ 0) : Ideal.div (r : EReal) (s : EReal) = ((r / s : ℝ) : EReal) := by
  rw [Ideal.div, if_neg (by exact_mod_cast hs), ← EReal.coe_inv, ← EReal.coe_mul, div_eq_mul_inv]

/-- The quotient of a finite value by a finite nonzero value is finite. -/
theorem IsFin.div {x y : EReal} (hx : IsFin x) (hy : IsFin y) (hy0 : y ≠ 0) : IsFin (Ideal.div x y) := by
  obtain ⟨r, rfl⟩ := hx; obtain ⟨s, rfl⟩ := hy
  have hs : s ≠ 0 := by exact_mod_cast hy0
  exact ⟨r / s, div_coe_coe r s hs⟩

/-- The reciprocal square root of a positive real is the real `1 / √r`. -/
theorem rsqrt_coe_pos (r : ℝ) (hr : 0 < r) : Ideal.rsqrt (r : EReal) = (((Real.sqrt r)⁻¹ : ℝ) : EReal) := by
  rw [Ideal.rsqrt_coe, if_neg (not_lt.mpr hr.le), if_neg hr.ne']

/-- The reciprocal square root of a finite positive value is finite. -/
theorem IsFin.rsqrt {x : EReal} (hx : IsFin x) (hpos : 0 < x) : IsFin (Ideal.rsqrt x) := by
  obtain ⟨r, rfl⟩ := hx
  have hr : 0 < r := by exact_mod_cast hpos
  exact ⟨_, rsqrt_coe_pos r hr⟩

/-- The reciprocal square root of a finite positive value is positive. -/
theorem rsqrt_pos {x : EReal} (hx : IsFin x) (hpos : 0 < x) : 0 < Ideal.rsqrt x := by
  obtain ⟨r, rfl⟩ := hx
  have hr : 0 < r := by exact_mod_cast hpos
  rw [rsqrt_coe_pos r hr]
  exact_mod_cast inv_pos.mpr (Real.sqrt_pos.mpr hr)

/-- A finite value times itself is not negative. -/
theorem mul_self_nonneg' {x : EReal} (hx : IsFin x) : 0 ≤ x * x := by
  obtain ⟨r, rfl⟩ := hx
  rw [← EReal.coe_mul]; exact_mod_cast mul_self_nonneg r

/-- A finite sum of values that are not negative is not negative. -/
theorem sum_nonneg' {ι : Type*} (s : Finset ι) (f : ι → EReal) (h : ∀ i ∈ s, 0 ≤ f i) : 0 ≤ ∑ i ∈ s, f i :=
  Finset.sum_nonneg h

/-- A sum of squared deviations of finite values from a finite centre is not negative. -/
theorem sum_sq_nonneg {ι : Type*} (s : Finset ι) (h : ι → EReal) (μ : EReal) (hh : ∀ j ∈ s, IsFin (h j))
    (hμ : IsFin μ) : 0 ≤ ∑ j ∈ s, (h j - μ) * (h j - μ) :=
  Finset.sum_nonneg fun j hj => mul_self_nonneg' ((hh j hj).sub hμ)

/-- The quotient of a finite value that is not negative by a finite positive value is not negative. -/
theorem div_nonneg' {x y : EReal} (hx : IsFin x) (hx0 : 0 ≤ x) (hy : IsFin y) (hy0 : 0 < y) :
    0 ≤ Ideal.div x y := by
  obtain ⟨r, rfl⟩ := hx; obtain ⟨s, rfl⟩ := hy
  have hr : 0 ≤ r := by exact_mod_cast hx0
  have hs : 0 < s := by exact_mod_cast hy0
  rw [div_coe_coe r s hs.ne']
  exact_mod_cast div_nonneg hr hs.le

/-- A value that is not negative plus a positive value is positive. -/
theorem add_pos' {a b : EReal} (ha : 0 ≤ a) (hb : 0 < b) : 0 < a + b :=
  lt_of_lt_of_le hb (le_add_of_nonneg_left ha)

/-- The mean of squared deviations over sixty-four, plus the small constant, is positive (and finite). -/
theorem var_add_eps_pos {ι : Type*} (s : Finset ι) (h : ι → EReal) (μ : EReal) (hh : ∀ j ∈ s, IsFin (h j))
    (hμ : IsFin μ) :
    0 < Ideal.div (∑ j ∈ s, (h j - μ) * (h j - μ)) (Ideal.ofBits .f32 0x42800000#32)
        + Ideal.ofBits .f32 0x3727C5AC#32 :=
  add_pos' (div_nonneg' (isFin_sum s _ fun j hj => ((hh j hj).sub hμ).mul ((hh j hj).sub hμ))
    (sum_sq_nonneg s h μ hh hμ) isFin_ofBits_64 ofBits_64_pos) ofBits_eps_pos

/-- … and it is finite. -/
theorem var_add_eps_fin {ι : Type*} (s : Finset ι) (h : ι → EReal) (μ : EReal) (hh : ∀ j ∈ s, IsFin (h j))
    (hμ : IsFin μ) :
    IsFin (Ideal.div (∑ j ∈ s, (h j - μ) * (h j - μ)) (Ideal.ofBits .f32 0x42800000#32)
        + Ideal.ofBits .f32 0x3727C5AC#32) :=
  ((isFin_sum s _ fun j hj => ((hh j hj).sub hμ).mul ((hh j hj).sub hμ)).div isFin_ofBits_64
    ofBits_64_ne_zero).add isFin_ofBits_eps

/-! ### Array operations keep finiteness -/

section Arrays
variable {s t : Shape} {φ : FTy}

/-- The entrywise sum of two finite arrays is finite. -/
theorem allFin_addf {x y : FVec Ideal s φ} (hx : AllFin x) (hy : AllFin y) : AllFin (addf x y) :=
  fun i => (hx i).add (hy i)

/-- The entrywise difference of two finite arrays is finite. -/
theorem allFin_subf {x y : FVec Ideal s φ} (hx : AllFin x) (hy : AllFin y) : AllFin (subf x y) :=
  fun i => (hx i).sub (hy i)

/-- The entrywise product of two finite arrays is finite. -/
theorem allFin_mulf {x y : FVec Ideal s φ} (hx : AllFin x) (hy : AllFin y) : AllFin (mulf x y) :=
  fun i => (hx i).mul (hy i)

/-- The entrywise maximum of two finite arrays is finite. -/
theorem allFin_maximumf {x y : FVec Ideal s φ} (hx : AllFin x) (hy : AllFin y) : AllFin (maximumf x y) :=
  fun i => (hx i).max (hy i)

/-- The entrywise minimum of two finite arrays is finite. -/
theorem allFin_minimumf {x y : FVec Ideal s φ} (hx : AllFin x) (hy : AllFin y) : AllFin (minimumf x y) :=
  fun i => (hx i).min (hy i)

/-- The entrywise negation of a finite array is finite. -/
theorem allFin_negf {x : FVec Ideal s φ} (hx : AllFin x) : AllFin (negf x) :=
  fun i => (hx i).neg

/-- The entrywise quotient of a finite array by a finite, nowhere zero array is finite. -/
theorem allFin_divf {x y : FVec Ideal s φ} (hx : AllFin x) (hy : AllFin y) (hy0 : ∀ i, y i ≠ 0) :
    AllFin (divf x y) :=
  fun i => (hx i).div (hy i) (hy0 i)

/-- The same for the quotient as the reference program writes it. -/
theorem allFin_hostDivf {x y : FVec Ideal s φ} (hx : AllFin x) (hy : AllFin y) (hy0 : ∀ i, y i ≠ 0) :
    AllFin (Host.divf x y) :=
  fun i => (hx i).div (hy i) (hy0 i)

/-- The entrywise reciprocal square root of a finite, everywhere positive array is finite. -/
theorem allFin_rsqrt {x : FVec Ideal s φ} (hx : AllFin x) (hpos : ∀ i, 0 < x i) : AllFin (rsqrt x) :=
  fun i => (hx i).rsqrt (hpos i)

/-- The same for the reciprocal square root as the reference program writes it. -/
theorem allFin_hostRsqrt {x : FVec Ideal s φ} (hx : AllFin x) (hpos : ∀ i, 0 < x i) : AllFin (Host.rsqrt x) :=
  fun i => (hx i).rsqrt (hpos i)

/-- A change of format is the identity on extended reals, so it keeps finiteness. -/
theorem allFin_truncf {x : FVec Ideal s φ} (ψ : FTy) (h : ψ.bits < φ.bits) (hx : AllFin x) :
    AllFin (truncf ψ x h) :=
  fun i => hx i

/-- A change of format is the identity on extended reals, so it keeps finiteness. -/
theorem allFin_extf {x : FVec Ideal s φ} (ψ : FTy) (h : φ.bits < ψ.bits) (hx : AllFin x) :
    AllFin (extf ψ x h) :=
  fun i => hx i

/-- The array that repeats one finite value is finite. -/
theorem allFin_broadcast {x : EReal} (hx : IsFin x) : AllFin (broadcast t x) :=
  fun _ => hx

/-- Every entry of a broadcast array is an entry of its source. -/
theorem allFin_broadcastTo {x : s.Idx → EReal} (h : s.Broadcasts t) (hx : AllFin x) :
    AllFin (broadcastTo t x h) :=
  fun _ => hx _

/-- Every entry of a broadcast array is an entry of its source. -/
theorem allFin_broadcastInDim {x : s.Idx → EReal} (dims : Fin s.rank → Fin t.rank)
    (h : s.BroadcastsInDim t dims) (hx : AllFin x) : AllFin (broadcastInDim t dims h x) :=
  fun _ => hx _

/-- Every entry of a reshaped array is an entry of its source. -/
theorem allFin_shapeCast {x : s.Idx → EReal} (h : s.ShapeCasts t) (hx : AllFin x) :
    AllFin (shapeCast t x h) :=
  fun _ => hx _

/-- Every entry of a slice is an entry of its source. -/
theorem allFin_slice {x : s.Idx → EReal} (off : Fin s.rank → Nat) (h : s.Slices off t) (hx : AllFin x) :
    AllFin (extractStridedSlice t off x h) :=
  fun _ => hx _

/-- Every entry of a transposed array is an entry of its source. -/
theorem allFin_transpose {x : s.Idx → EReal} (perm : List (Fin s.rank)) (h : s.Transposes perm t)
    (hx : AllFin x) : AllFin (transpose t perm x h) :=
  fun _ => hx _

/-- The constant array of a word that denotes a finite value is finite. -/
theorem allFin_constant {b : BitVec φ.bits} (hb : IsFin (Ideal.ofBits φ b)) :
    AllFin (constant (F := Ideal) s φ b) :=
  fun _ => hb

/-- An entrywise choice between two finite arrays is finite. -/
theorem allFin_select {c : IVec s 1} {a b : s.Idx → EReal} (ha : AllFin a) (hb : AllFin b) :
    AllFin (select c a b) := by
  intro i
  show IsFin (Scalar.select (c i) (a i) (b i))
  unfold Scalar.select
  split
  · exact ha i
  · exact hb i

/-- Every entry of a gathered array is an entry of its source, whatever the indices. -/
theorem allFin_gather {si : Shape} {w : Nat} (d : GatherDims s si t) {x : s.Idx → EReal} (idx : IVec si w)
    (hx : AllFin x) : AllFin (Host.gather d x idx) :=
  fun _ => hx _

/-- An accumulating scatter gives, at each place, the operand's entry plus a finite sum of update
    entries: finite when the operand and the updates are. -/
theorem allFin_scatterAdd {si u : Shape} {w : Nat} (d : ScatterDims s si u) {x : FVec Ideal s φ}
    (idx : IVec si w) {upd : FVec Ideal u φ} (hx : AllFin x) (hu : AllFin upd) :
    AllFin (Host.scatterAdd d x idx upd) :=
  fun i => (hx i).add (isFin_sum _ _ fun j _ => hu j)

/-- A matrix product into a finite accumulator, of finite operands, is finite: each entry is the
    accumulator's plus a finite sum of products. -/
theorem allFin_matmul {sl sr so : Shape} {φ₁ φ₂ : FTy} (d : DotDims sl sr so) (prec : Option ContractPrecision)
    {lhs : FVec Ideal sl φ₁} {rhs : FVec Ideal sr φ₂} {acc : FVec Ideal so .f32} (hl : AllFin lhs)
    (hr : AllFin rhs) (ha : AllFin acc) : AllFin (matmul d prec lhs rhs acc) :=
  fun j => (ha j).add (isFin_sum _ _ fun k _ => (hl _).mul (hr _))

/-- The reference's matrix product of finite operands is finite: each entry is a finite sum of products. -/
theorem allFin_dotGeneral {sl sr so : Shape} {φ₁ φ₂ : FTy} (d : DotDims sl sr so)
    (prec : Option ContractPrecision) {lhs : FVec Ideal sl φ₁} {rhs : FVec Ideal sr φ₂} (hl : AllFin lhs)
    (hr : AllFin rhs) : AllFin (Host.dotGeneral d prec lhs rhs) :=
  fun j => isFin_zero.add (isFin_sum _ _ fun k _ => (hl _).mul (hr _))

/-- The reference's sum over axes, from a finite initial value, of a finite array is finite. -/
theorem allFin_reduceAdd {axes : List (Fin s.rank)} {u : Shape} {x : FVec Ideal s φ} {init : u.Idx → Ideal φ}
    (h : s.ReducesTo axes t) (hu : 0 < u.numel) (hx : AllFin x) (hi : AllFin init) :
    AllFin (Host.reduceAdd x init h hu) :=
  fun j => (hi _).add (isFin_sum _ _ fun i _ => hx i)

/-- The kernel's sum over axes of a finite array is finite. -/
theorem allFin_multiReduction_add {axes : List (Fin s.rank)} {x : FVec Ideal s φ} (acc : BitVec φ.bits)
    (h : s.Reduces axes t) (hφ : FKind.Formats φ) (hacc : acc = FKind.add.neutral φ hφ) (hx : AllFin x) :
    AllFin (multiReduction .add axes t x acc h hφ hacc) := by
  intro j
  show IsFin (Ideal.reduceAdd h x j)
  unfold Ideal.reduceAdd
  exact isFin_sum _ _ fun i _ => hx i

/-- Every entry of a concatenation is an entry of one of its parts. -/
theorem allFin_concatenate (a : Fin t.rank) (xs : List ((s : Shape) × (s.Idx → EReal)))
    (h : Shape.Concatenates (xs.map (·.1)) t a) (hxs : ∀ p ∈ xs, AllFin p.2) :
    AllFin (concatenate t a xs h) := by
  intro j
  unfold concatenate
  exact hxs _ (List.getElem_mem _) _

end Arrays

end Cert.Fin

end
-- ==== Proof.Softmax.lean ====
/-
  One row of attention: the softmax-weighted sum of value entries, and the streaming way of computing it
  one block of keys at a time.

  For a row of scores `s k` and value entries `w k` the one-pass form is
      Σₖ (exp (s k − M) / Σⱼ exp (s j − M)) · w k,        M = the greatest score.
  The streaming form keeps three running quantities — the greatest score seen so far `m`, the denominator
  `l = Σ exp (s − m)` and the weighted sum `a = Σ exp (s − m) · w` over the keys seen so far — and, when a new
  block of keys arrives, moves all three to the new maximum `m'`: the old `l` and `a` are multiplied by
  `exp (m − m')`, which turns every `exp (s − m)` into `exp (s − m')`, and the block's own terms are added.
  Before the first block `m = −∞`, `l = a = 0`, and `exp (−∞ − m') = 0` wipes the empty start. At the end the
  weighted sum is multiplied by `1 / l`.

  The two forms agree for finite scores and values: the rescaling is `exp x · exp y = exp (x + y)`, and
  `(Σ e·w) · (1/L) = Σ (e/L) · w` is distributivity with `L > 0`; both are laws of the reals, not of the
  extended reals, which is why finiteness is asked.
-/
import proofs.«427594_j86251533238989_3_alg».proof.Proof.LibFinite

noncomputable section

namespace Cert.Attn

open Idealize.ShloMosaic Cert.Fin
open scoped BigOperators

/-- The greatest of finitely many extended reals, starting from `−∞`. -/
def vmax {n : ℕ} (f : Fin n → EReal) : EReal := (Finset.univ : Finset (Fin n)).fold max ⊥ f

/-- The running maximum after one more block of scores. -/
def stepMax {n : ℕ} (m : EReal) (s : Fin n → EReal) : EReal := max m (vmax s)

/-- The running denominator after one more block: the old one moved to the new maximum, plus the block's weights. -/
def stepDen {n : ℕ} (m l : EReal) (s : Fin n → EReal) : EReal :=
  Ideal.exp (m - stepMax m s) * l + ∑ k, Ideal.exp (s k - stepMax m s)

/-- The running weighted sum after one more block: the old one moved to the new maximum, plus the block's
    weights times its value entries. -/
def stepAcc {n : ℕ} (m a : EReal) (s w : Fin n → EReal) : EReal :=
  Ideal.exp (m - stepMax m s) * a + ∑ k, Ideal.exp (s k - stepMax m s) * w k

/-- The softmax-weighted sum in one pass over all keys. -/
def softmaxDot {n : ℕ} (s w : Fin n → EReal) : EReal :=
  ∑ k, Ideal.div (Ideal.exp (s k - max ⊥ (vmax s))) (0 + ∑ j, Ideal.exp (s j - max ⊥ (vmax s))) * w k

/-- Key `k` of the first block of 1024, among all 2048 keys. -/
def lo (k : Fin 1024) : Fin 2048 := ⟨k.val, by have := k.isLt; omega⟩

/-- Key `k` of the second block of 1024, among all 2048 keys. -/
def hi (k : Fin 1024) : Fin 2048 := ⟨1024 + k.val, by have := k.isLt; omega⟩

/-- The word of `−∞` denotes the bottom of the extended reals. -/
theorem ofBits_neg_inf : Ideal.ofBits .f32 0xFF800000#32 = ⊥ := by
  simp [Ideal.ofBits, Ideal.ieee]

/-- The greatest of finitely many finite values, over a nonempty index set, is one of them, hence finite. -/
theorem isFin_fold_max {ι : Type*} (t : Finset ι) (ht : t.Nonempty) (f : ι → EReal)
    (h : ∀ i ∈ t, IsFin (f i)) : IsFin (t.fold max ⊥ f) := by
  induction ht using Finset.Nonempty.cons_induction with
  | singleton a =>
    rw [Finset.fold_singleton, max_eq_left bot_le]
    exact h a (Finset.mem_singleton_self a)
  | cons a t ha ht ih =>
    rw [Finset.fold_cons]
    exact (h a (Finset.mem_cons_self a t)).max (ih fun i hi => h i (Finset.mem_cons.mpr (Or.inr hi)))

/-- The greatest entry of a nonempty finite array is finite. -/
theorem isFin_vmax {n : ℕ} (hn : 0 < n) (f : Fin n → EReal) (hf : AllFin f) : IsFin (vmax f) :=
  isFin_fold_max _ ⟨⟨0, hn⟩, Finset.mem_univ _⟩ f fun i _ => hf i

/-- A sum over the 2048 keys is the sum over the first block plus the sum over the second. -/
theorem sum_lo_hi {M : Type*} [AddCommMonoid M] (f : Fin 2048 → M) :
    ∑ k, f k = ∑ k, f (lo k) + ∑ k, f (hi k) :=
  Fin.sum_univ_add (a := 1024) (b := 1024) f

/-- The greatest of the 2048 scores is the greater of the two blocks' greatest scores. -/
theorem vmax_lo_hi (s : Fin 2048 → EReal) :
    vmax s = max (vmax fun k => s (lo k)) (vmax fun k => s (hi k)) := by
  refine eq_of_forall_ge_iff fun c => ?_
  simp only [vmax, max_le_iff, Finset.fold_max_le, Finset.mem_univ, forall_true_left, bot_le, true_and]
  constructor
  · intro h
    exact ⟨fun k => h (lo k), fun k => h (hi k)⟩
  · rintro ⟨h1, h2⟩ x
    by_cases hx : x.val < 1024
    · exact h1 ⟨x.val, hx⟩
    · have hlt := x.isLt
      have : x = hi ⟨x.val - 1024, by omega⟩ := by
        apply Fin.ext
        simp only [hi]
        omega
      rw [this]
      exact h2 _

/-- The streaming identity on the reals, over any two finite blocks of keys: moving the first block's
    denominator and weighted sum from its own centre `μ` to the common centre `M` is the law
    `exp (μ − M) · exp (σ − μ) = exp (σ − M)`, and the final factor `1 / L` goes inside the sums. -/
theorem real_two_blocks {ι₁ ι₂ : Type*} [Fintype ι₁] [Fintype ι₂] (σ₁ ω₁ : ι₁ → ℝ) (σ₂ ω₂ : ι₂ → ℝ)
    (μ M : ℝ) :
    (Real.exp (μ - M) * (∑ k, Real.exp (σ₁ k - μ) * ω₁ k) + ∑ k, Real.exp (σ₂ k - M) * ω₂ k)
        * (1 / (Real.exp (μ - M) * (∑ k, Real.exp (σ₁ k - μ)) + ∑ k, Real.exp (σ₂ k - M)))
      = (∑ k, Real.exp (σ₁ k - M) / ((∑ j, Real.exp (σ₁ j - M)) + ∑ j, Real.exp (σ₂ j - M)) * ω₁ k)
        + ∑ k, Real.exp (σ₂ k - M) / ((∑ j, Real.exp (σ₁ j - M)) + ∑ j, Real.exp (σ₂ j - M)) * ω₂ k := by
  have hexp : ∀ k, Real.exp (μ - M) * Real.exp (σ₁ k - μ) = Real.exp (σ₁ k - M) := by
    intro k
    rw [← Real.exp_add]
    congr 1
    ring
  have hacc : Real.exp (μ - M) * (∑ k, Real.exp (σ₁ k - μ) * ω₁ k) = ∑ k, Real.exp (σ₁ k - M) * ω₁ k := by
    rw [Finset.mul_sum]
    exact Finset.sum_congr rfl fun k _ => by rw [← mul_assoc, hexp]
  have hden : Real.exp (μ - M) * (∑ k, Real.exp (σ₁ k - μ)) = ∑ k, Real.exp (σ₁ k - M) := by
    rw [Finset.mul_sum]
    exact Finset.sum_congr rfl fun k _ => hexp k
  rw [hacc, hden]
  have hdiv : ∀ (L x y : ℝ), x / L * y = x * y * (1 / L) := by
    intro L x y
    ring
  simp only [hdiv, ← Finset.sum_mul, ← add_mul]

/-- Two blocks of 1024 keys streamed, then normalised, give the one-pass softmax-weighted sum over the 2048 keys,
    for finite scores and finite value entries. -/
theorem online_two_blocks (s w : Fin 2048 → EReal) (hs : AllFin s) (hw : AllFin w) :
    stepAcc (stepMax ⊥ (fun k => s (lo k))) (stepAcc ⊥ 0 (fun k => s (lo k)) (fun k => w (lo k)))
        (fun k => s (hi k)) (fun k => w (hi k))
      * Ideal.div 1 (stepDen (stepMax ⊥ (fun k => s (lo k))) (stepDen ⊥ 0 (fun k => s (lo k))) (fun k => s (hi k)))
    = softmaxDot s w := by
  -- the greatest score of the first block, and of all keys, are real numbers
  obtain ⟨μ, hμ⟩ := isFin_vmax (by norm_num) (fun k => s (lo k)) fun k => hs (lo k)
  obtain ⟨M, hM⟩ := isFin_vmax (by norm_num) s hs
  have hm1 : stepMax ⊥ (fun k => s (lo k)) = (μ : EReal) := by
    rw [stepMax, hμ, max_eq_right bot_le]
  have hm2 : stepMax (μ : EReal) (fun k => s (hi k)) = (M : EReal) := by
    rw [stepMax, ← hμ, ← vmax_lo_hi, hM]
  have hm : max ⊥ (vmax s) = (M : EReal) := by
    rw [hM, max_eq_right bot_le]
  -- the scores and the value entries are real numbers
  obtain ⟨σ, hσ⟩ := hs.exists_real
  obtain ⟨ω, hω⟩ := hw.exists_real
  obtain rfl : s = fun i => (σ i : EReal) := funext hσ
  obtain rfl : w = fun i => (ω i : EReal) := funext hω
  -- the first block
  have hl1 : stepDen ⊥ 0 (fun k => (σ (lo k) : EReal)) = ((∑ k, Real.exp (σ (lo k) - μ) : ℝ) : EReal) := by
    simp only [stepDen, hm1, EReal.bot_sub, Ideal.exp_bot, mul_zero, zero_add, ← EReal.coe_sub,
      Ideal.exp_coe, ← coe_sum]
  have ha1 : stepAcc ⊥ 0 (fun k => (σ (lo k) : EReal)) (fun k => (ω (lo k) : EReal))
      = ((∑ k, Real.exp (σ (lo k) - μ) * ω (lo k) : ℝ) : EReal) := by
    simp only [stepAcc, hm1, EReal.bot_sub, Ideal.exp_bot, mul_zero, zero_add, ← EReal.coe_sub,
      Ideal.exp_coe, ← EReal.coe_mul, ← coe_sum]
  -- the second block
  have hl2 : stepDen (μ : EReal) ((∑ k, Real.exp (σ (lo k) - μ) : ℝ) : EReal) (fun k => (σ (hi k) : EReal))
      = ((Real.exp (μ - M) * (∑ k, Real.exp (σ (lo k) - μ)) + ∑ k, Real.exp (σ (hi k) - M) : ℝ) : EReal) := by
    simp only [stepDen, hm2, ← EReal.coe_sub, Ideal.exp_coe, ← EReal.coe_mul, ← coe_sum, ← EReal.coe_add]
  have ha2 : stepAcc (μ : EReal) ((∑ k, Real.exp (σ (lo k) - μ) * ω (lo k) : ℝ) : EReal)
        (fun k => (σ (hi k) : EReal)) (fun k => (ω (hi k) : EReal))
      = ((Real.exp (μ - M) * (∑ k, Real.exp (σ (lo k) - μ) * ω (lo k))
          + ∑ k, Real.exp (σ (hi k) - M) * ω (hi k) : ℝ) : EReal) := by
    simp only [stepAcc, hm2, ← EReal.coe_sub, Ideal.exp_coe, ← EReal.coe_mul, ← coe_sum, ← EReal.coe_add]
  -- the denominators are positive
  have hL2 : Real.exp (μ - M) * (∑ k, Real.exp (σ (lo k) - μ)) + ∑ k, Real.exp (σ (hi k) - M) ≠ 0 := by
    refine (add_pos_of_nonneg_of_pos (mul_nonneg (Real.exp_pos _).le
      (Finset.sum_nonneg fun k _ => (Real.exp_pos _).le))
      (Finset.sum_pos (fun k _ => Real.exp_pos _) ⟨⟨0, by norm_num⟩, Finset.mem_univ _⟩)).ne'
  have hL : (∑ j, Real.exp (σ j - M)) ≠ 0 :=
    (Finset.sum_pos (fun k _ => Real.exp_pos _) ⟨⟨0, by norm_num⟩, Finset.mem_univ _⟩).ne'
  -- the one-pass form
  have hR : softmaxDot (fun i => (σ i : EReal)) (fun i => (ω i : EReal))
      = ((∑ k, Real.exp (σ k - M) / (∑ j, Real.exp (σ j - M)) * ω k : ℝ) : EReal) := by
    simp only [softmaxDot, hm, zero_add, ← EReal.coe_sub, Ideal.exp_coe, ← coe_sum, div_coe_coe _ _ hL,
      ← EReal.coe_mul]
  rw [hm1, ha1, hl1, ha2, hl2, hR, ← EReal.coe_one, div_coe_coe _ _ hL2, ← EReal.coe_mul, EReal.coe_eq_coe_iff,
    real_two_blocks, sum_lo_hi (fun k => Real.exp (σ k - M) / (∑ j, Real.exp (σ j - M)) * ω k),
    sum_lo_hi (fun j => Real.exp (σ j - M))]

end Cert.Attn

end
-- ==== Proof.Rows.lean ====
/-
  One batch element of the kernel, read entry by entry over the extended reals.

  A grid point is given a block `X0` of 2048 query rows and a block `X1` of 1024 key rows (each row 512 features).
  Its scores are the inner products `Σ_d X0[q,d] · X1[k,d]` (the change of float format before the product is the
  identity here, and the product into a zero accumulator is the plain sum). Per query row `q` the body then forms
  the new running maximum (the maximum found, against the greatest score of the block, a fold of `max` from `−∞`),
  the weights `exp (score − new maximum)`, the factor `exp (old maximum − new maximum)`, the new denominator
  (factor · old denominator + the sum of the weights) and, per feature `d`, the new weighted sum (factor · old sum +
  Σ_k weight[q,k] · X1[k,d]). These are the three streaming steps `stepMax`, `stepDen`, `stepAcc` of one row.
  The lemmas below read each payload term of the body at an index; the layout operations between them (a row
  vector turned into a column, a column spread along keys or features) only move an entry to where it is read.
  The last lemma chains a first point (from `−∞`, `0`, `0`) and a second point and the final normalisation.
-/
import proofs.«427594_j86251533238989_3_alg».proof.Proof.Gen.KernelIdeal.Skeleton
import proofs.«427594_j86251533238989_3_alg».proof.Proof.Softmax
import Idealize.ShloMosaic.Lib.ValueIdx
import Idealize.ShloMosaic.Lib.Pipeline.Value
import Idealize.ShloMosaic.PureOps.Ideal.Laws

noncomputable section

open Idealize.ShloMosaic Idealize.ShloMosaic.ValueIdx
open scoped BigOperators

namespace Cert.KernelIdeal.Rows

open Cert.KernelIdeal Cert.KernelIdeal.Gen Cert.Attn

abbrev dotQK := dot_S1x2048x512_S1x1024x512_S1x2048x1024_2_2_1_1_0_0
abbrev dotPV := dot_S1x2048x1024_S1x1024x512_S1x2048x512_2_1_1_2_0_0

theorem lhsQK_0 (i : S1x2048x1024.Idx) (q : dot_S1x2048x512_S1x1024x512_S1x2048x1024_2_2_1_1_0_0.contr.Idx) :
    (dot_S1x2048x512_S1x1024x512_S1x2048x1024_2_2_1_1_0_0.lhsIdx i q 0).val = (i 0).val := by
  unfold DotDims.lhsIdx
  rw [dif_pos (show (0 : Fin S1x2048x512.rank) ∈ dot_S1x2048x512_S1x1024x512_S1x2048x1024_2_2_1_1_0_0.lhsBatch by decide)]
  rfl
theorem lhsQK_1 (i : S1x2048x1024.Idx) (q : dot_S1x2048x512_S1x1024x512_S1x2048x1024_2_2_1_1_0_0.contr.Idx) :
    (dot_S1x2048x512_S1x1024x512_S1x2048x1024_2_2_1_1_0_0.lhsIdx i q 1).val = (i 1).val := by
  unfold DotDims.lhsIdx
  rw [dif_neg (show ¬(1 : Fin S1x2048x512.rank) ∈ dot_S1x2048x512_S1x1024x512_S1x2048x1024_2_2_1_1_0_0.lhsBatch by decide), dif_pos (show (1 : Fin S1x2048x512.rank) ∈ dot_S1x2048x512_S1x1024x512_S1x2048x1024_2_2_1_1_0_0.lhsNonContracting by decide)]
  rfl
theorem lhsQK_2 (i : S1x2048x1024.Idx) (q : dot_S1x2048x512_S1x1024x512_S1x2048x1024_2_2_1_1_0_0.contr.Idx) :
    (dot_S1x2048x512_S1x1024x512_S1x2048x1024_2_2_1_1_0_0.lhsIdx i q 2).val = (q ⟨0, by decide⟩).val :=
  dot_S1x2048x512_S1x1024x512_S1x2048x1024_2_2_1_1_0_0.lhsIdx_val_of_single rfl i q
theorem rhsQK_0 (i : S1x2048x1024.Idx) (q : dot_S1x2048x512_S1x1024x512_S1x2048x1024_2_2_1_1_0_0.contr.Idx) :
    (dot_S1x2048x512_S1x1024x512_S1x2048x1024_2_2_1_1_0_0.rhsIdx i q 0).val = (i 0).val := by
  unfold DotDims.rhsIdx
  rw [dif_pos (show (0 : Fin S1x1024x512.rank) ∈ dot_S1x2048x512_S1x1024x512_S1x2048x1024_2_2_1_1_0_0.rhsBatch by decide)]
  rfl
theorem rhsQK_1 (i : S1x2048x1024.Idx) (q : dot_S1x2048x512_S1x1024x512_S1x2048x1024_2_2_1_1_0_0.contr.Idx) :
    (dot_S1x2048x512_S1x1024x512_S1x2048x1024_2_2_1_1_0_0.rhsIdx i q 1).val = (i 2).val := by
  unfold DotDims.rhsIdx
  rw [dif_neg (show ¬(1 : Fin S1x1024x512.rank) ∈ dot_S1x2048x512_S1x1024x512_S1x2048x1024_2_2_1_1_0_0.rhsBatch by decide), dif_pos (show (1 : Fin S1x1024x512.rank) ∈ dot_S1x2048x512_S1x1024x512_S1x2048x1024_2_2_1_1_0_0.rhsNonContracting by decide)]
  rfl
theorem rhsQK_2 (i : S1x2048x1024.Idx) (q : dot_S1x2048x512_S1x1024x512_S1x2048x1024_2_2_1_1_0_0.contr.Idx) :
    (dot_S1x2048x512_S1x1024x512_S1x2048x1024_2_2_1_1_0_0.rhsIdx i q 2).val = (q ⟨0, by decide⟩).val :=
  dot_S1x2048x512_S1x1024x512_S1x2048x1024_2_2_1_1_0_0.rhsIdx_val_of_single rfl i q

/-- The score of query row `q` of the block `X0` against key row `k` of the block `X1`. -/
def rowScore (X0 : S1x2048x512.Idx → EReal) (X1 : S1x1024x512.Idx → EReal) (q : Fin 2048) (k : Fin 1024) : EReal :=
  ∑ d : Fin 512, X0 (ix3 0 q d) * X1 (ix3 0 k d)

theorem scores_apply (X0 : S1x2048x512.Idx → EReal) (X1 : S1x1024x512.Idx → EReal) (q : Fin 2048) (k : Fin 1024) :
    k0_pay8 (F := Ideal) X0 X1 (ix3 0 q k) = rowScore X0 X1 q k := by
  unfold k0_pay8 k0_pay7 rowScore
  simp only [matmul]
  rw [Ideal.matmul_constant_zero_apply, ← Equiv.sum_comp (ValueIdx.contrEquiv1 dot_S1x2048x512_S1x1024x512_S1x2048x1024_2_2_1_1_0_0 512 rfl rfl).symm]
  refine Finset.sum_congr rfl fun d _ => ?_
  have hk := ValueIdx.contrEquiv1_symm_val dot_S1x2048x512_S1x1024x512_S1x2048x1024_2_2_1_1_0_0 512 rfl rfl d
  have el : dot_S1x2048x512_S1x1024x512_S1x2048x1024_2_2_1_1_0_0.lhsIdx (ix3 0 q k) ((ValueIdx.contrEquiv1 dot_S1x2048x512_S1x1024x512_S1x2048x1024_2_2_1_1_0_0 512 rfl rfl).symm d) = ix3 0 q d := funext fun a => Fin.ext (by
    match a with
    | ⟨0, _⟩ => exact lhsQK_0 _ _
    | ⟨1, _⟩ => exact lhsQK_1 _ _
    | ⟨2, _⟩ => exact (lhsQK_2 _ _).trans hk)
  have er : dot_S1x2048x512_S1x1024x512_S1x2048x1024_2_2_1_1_0_0.rhsIdx (ix3 0 q k) ((ValueIdx.contrEquiv1 dot_S1x2048x512_S1x1024x512_S1x2048x1024_2_2_1_1_0_0 512 rfl rfl).symm d) = ix3 0 k d := funext fun a => Fin.ext (by
    match a with
    | ⟨0, _⟩ => exact rhsQK_0 _ _
    | ⟨1, _⟩ => exact rhsQK_1 _ _
    | ⟨2, _⟩ => exact (rhsQK_2 _ _).trans hk)
  rw [el, er]
  rfl

/-- Row `q` of a [1, 2048] array of row maxima, as the [1, 2048, 1] column the kernel keeps. -/
theorem column_apply {α : Type} (v : S1x2048.Idx → α) (q : Fin 2048) :
    shapeCast S1x2048x1 v shapeCasts_S1x2048_S1x2048x1 (ix3 0 q 0) = v (ix2 0 q) := by
  refine shapeCast_apply v shapeCasts_S1x2048_S1x2048x1 (ix3 0 q 0) (ix2 0 q) ?_
  rw [Shape.rowMajor_val_two, Shape.rowMajor_val_three]
  show (0 : ℕ) * 2048 + q.val = ((0 : ℕ) * 2048 + q.val) * 1 + 0
  omega

/-- A [1, 2048, 1] column spread along the keys: every key of row `q` sees the row's entry. -/
theorem spreadKeys_apply {α : Type} (v : S1x2048x1.Idx → α) (q : Fin 2048) (k : Fin 1024) :
    broadcastTo S1x2048x1024 v broadcasts_S1x2048x1_S1x2048x1024 (ix3 0 q k) = v (ix3 0 q 0) := by
  refine broadcastTo_apply v broadcasts_S1x2048x1_S1x2048x1024 (ix3 0 q k) (ix3 0 q 0) fun a => ?_
  match a with
  | ⟨0, _⟩ => show (0 : ℕ) = if (1 : ℕ) = 1 then 0 else _; rw [if_pos rfl]
  | ⟨1, _⟩ => show q.val = if (2048 : ℕ) = 1 then 0 else q.val; rw [if_neg (by decide)]
  | ⟨2, _⟩ => show (0 : ℕ) = if (1 : ℕ) = 1 then 0 else _; rw [if_pos rfl]

/-- A [1, 2048, 1] column spread along the features: every feature of row `q` sees the row's entry. -/
theorem spreadFeatures_apply {α : Type} (v : S1x2048x1.Idx → α) (q : Fin 2048) (d : Fin 512) :
    broadcastTo S1x2048x512 v broadcasts_S1x2048x1_S1x2048x512 (ix3 0 q d) = v (ix3 0 q 0) := by
  refine broadcastTo_apply v broadcasts_S1x2048x1_S1x2048x512 (ix3 0 q d) (ix3 0 q 0) fun a => ?_
  match a with
  | ⟨0, _⟩ => show (0 : ℕ) = if (1 : ℕ) = 1 then 0 else _; rw [if_pos rfl]
  | ⟨1, _⟩ => show q.val = if (2048 : ℕ) = 1 then 0 else q.val; rw [if_neg (by decide)]
  | ⟨2, _⟩ => show (0 : ℕ) = if (1 : ℕ) = 1 then 0 else _; rw [if_pos rfl]

/-- Key `k` put back on the key axis of row `q`. -/
theorem lift_key (q : Fin 2048) (k : Fin 1024) :
    reduces_S1x2048x1024_S1x2048.lift (ix2 0 q) k = ix3 0 q k :=
  funext fun a => Fin.ext (by match a with | ⟨0, _⟩ => rfl | ⟨1, _⟩ => rfl | ⟨2, _⟩ => rfl)

/-- The maximum over the keys of row `q`, from `−∞`. -/
theorem keyMax_apply (src : FVec Ideal S1x2048x1024 .f32) (hφ : FKind.Formats .f32)
    (hacc : (0xFF800000#32 : BitVec 32) = 0xFF800000#32) (q : Fin 2048) :
    multiReduction .maximumf [2] S1x2048 src 0xFF800000#32 reduces_S1x2048x1024_S1x2048 hφ hacc (ix2 0 q)
      = vmax fun k : Fin 1024 => src (ix3 0 q k) := by
  refine (Ideal.multiReduction_maximumf_single src 0xFF800000#32 reduces_S1x2048x1024_S1x2048 hφ hacc (ix2 0 q)).trans ?_
  unfold vmax
  rw [Ideal.ofBits_def, ofBits_neg_inf]
  exact congrArg (Finset.fold max ⊥ · Finset.univ) (funext fun k => congrArg src (lift_key q k))

/-- The sum over the keys of row `q`. -/
theorem keySum_apply (src : FVec Ideal S1x2048x1024 .f32) (hφ : FKind.Formats .f32)
    (hacc : (0x00000000#32 : BitVec 32) = 0x00000000#32) (q : Fin 2048) :
    multiReduction .add [2] S1x2048 src 0x00000000#32 reduces_S1x2048x1024_S1x2048 hφ hacc (ix2 0 q)
      = ∑ k : Fin 1024, src (ix3 0 q k) := by
  refine (Ideal.multiReduction_add_single src 0x00000000#32 reduces_S1x2048x1024_S1x2048 hφ hacc (ix2 0 q)).trans ?_
  exact Finset.sum_congr rfl fun k _ => congrArg src (lift_key q k)

/-- The new running maximum of row `q`: the one found, against the greatest score of the block. -/
theorem newMax_apply (X0 : S1x2048x512.Idx → EReal) (X1 : S1x1024x512.Idx → EReal) (m : S1x2048x1.Idx → EReal) (q : Fin 2048) :
    k0_pay9 (F := Ideal) X0 X1 m (ix3 0 q 0) = stepMax (m (ix3 0 q 0)) (rowScore X0 X1 q) := by
  unfold k0_pay9
  dsimp only
  rw [maximumf_apply, column_apply, keyMax_apply]
  unfold stepMax
  exact congrArg (max (m (ix3 0 q 0))) (congrArg vmax (funext fun k => scores_apply X0 X1 q k))

/-- The weight of key `k` for row `q`: the exponential of its score less the new running maximum. -/
theorem weights_apply (X0 : S1x2048x512.Idx → EReal) (X1 : S1x1024x512.Idx → EReal) (m : S1x2048x1.Idx → EReal) (q : Fin 2048) (k : Fin 1024) :
    k0_pay11 (F := Ideal) X0 X1 m (ix3 0 q k)
      = Ideal.exp (rowScore X0 X1 q k - stepMax (m (ix3 0 q 0)) (rowScore X0 X1 q)) := by
  unfold k0_pay11
  (try dsimp only)
  show Ideal.exp (k0_pay8 (F := Ideal) X0 X1 (ix3 0 q k) - broadcastTo S1x2048x1024 (k0_pay9 (F := Ideal) X0 X1 m) broadcasts_S1x2048x1_S1x2048x1024 (ix3 0 q k)) = _
  rw [spreadKeys_apply, scores_apply, newMax_apply]

/-- The factor that moves row `q`'s old quantities to the new running maximum. -/
theorem rescale_apply (X0 : S1x2048x512.Idx → EReal) (X1 : S1x1024x512.Idx → EReal) (m m' : S1x2048x1.Idx → EReal) (q : Fin 2048) :
    k0_pay10 (F := Ideal) X0 X1 m m' (ix3 0 q 0)
      = Ideal.exp (m' (ix3 0 q 0) - stepMax (m (ix3 0 q 0)) (rowScore X0 X1 q)) := by
  unfold k0_pay10
  (try dsimp only)
  show Ideal.exp (m' (ix3 0 q 0) - k0_pay9 (F := Ideal) X0 X1 m (ix3 0 q 0)) = _
  rw [newMax_apply]

/-- The new running denominator of row `q`. -/
theorem newDen_apply (X0 : S1x2048x512.Idx → EReal) (X1 : S1x1024x512.Idx → EReal) (m l : S1x2048x1.Idx → EReal) (q : Fin 2048) :
    k0_pay12 (F := Ideal) X0 X1 m m l (ix3 0 q 0) = stepDen (m (ix3 0 q 0)) (l (ix3 0 q 0)) (rowScore X0 X1 q) := by
  unfold k0_pay12
  (try dsimp only)
  rw [shapeCast_self, addf_apply, mulf_apply, column_apply, keySum_apply, rescale_apply]
  unfold stepDen
  exact congrArg (fun z : EReal => Ideal.exp (m (ix3 0 q 0) - stepMax (m (ix3 0 q 0)) (rowScore X0 X1 q)) * l (ix3 0 q 0) + z) (Finset.sum_congr rfl fun k _ => weights_apply X0 X1 m q k)

theorem lhsPV_0 (i : S1x2048x512.Idx) (q : dot_S1x2048x1024_S1x1024x512_S1x2048x512_2_1_1_2_0_0.contr.Idx) :
    (dot_S1x2048x1024_S1x1024x512_S1x2048x512_2_1_1_2_0_0.lhsIdx i q 0).val = (i 0).val := by
  unfold DotDims.lhsIdx
  rw [dif_pos (show (0 : Fin S1x2048x1024.rank) ∈ dot_S1x2048x1024_S1x1024x512_S1x2048x512_2_1_1_2_0_0.lhsBatch by decide)]
  rfl
theorem lhsPV_1 (i : S1x2048x512.Idx) (q : dot_S1x2048x1024_S1x1024x512_S1x2048x512_2_1_1_2_0_0.contr.Idx) :
    (dot_S1x2048x1024_S1x1024x512_S1x2048x512_2_1_1_2_0_0.lhsIdx i q 1).val = (i 1).val := by
  unfold DotDims.lhsIdx
  rw [dif_neg (show ¬(1 : Fin S1x2048x1024.rank) ∈ dot_S1x2048x1024_S1x1024x512_S1x2048x512_2_1_1_2_0_0.lhsBatch by decide), dif_pos (show (1 : Fin S1x2048x1024.rank) ∈ dot_S1x2048x1024_S1x1024x512_S1x2048x512_2_1_1_2_0_0.lhsNonContracting by decide)]
  rfl
theorem lhsPV_2 (i : S1x2048x512.Idx) (q : dot_S1x2048x1024_S1x1024x512_S1x2048x512_2_1_1_2_0_0.contr.Idx) :
    (dot_S1x2048x1024_S1x1024x512_S1x2048x512_2_1_1_2_0_0.lhsIdx i q 2).val = (q ⟨0, by decide⟩).val :=
  dot_S1x2048x1024_S1x1024x512_S1x2048x512_2_1_1_2_0_0.lhsIdx_val_of_single rfl i q
theorem rhsPV_0 (i : S1x2048x512.Idx) (q : dot_S1x2048x1024_S1x1024x512_S1x2048x512_2_1_1_2_0_0.contr.Idx) :
    (dot_S1x2048x1024_S1x1024x512_S1x2048x512_2_1_1_2_0_0.rhsIdx i q 0).val = (i 0).val := by
  unfold DotDims.rhsIdx
  rw [dif_pos (show (0 : Fin S1x1024x512.rank) ∈ dot_S1x2048x1024_S1x1024x512_S1x2048x512_2_1_1_2_0_0.rhsBatch by decide)]
  rfl
theorem rhsPV_1 (i : S1x2048x512.Idx) (q : dot_S1x2048x1024_S1x1024x512_S1x2048x512_2_1_1_2_0_0.contr.Idx) :
    (dot_S1x2048x1024_S1x1024x512_S1x2048x512_2_1_1_2_0_0.rhsIdx i q 1).val = (q ⟨0, by decide⟩).val :=
  dot_S1x2048x1024_S1x1024x512_S1x2048x512_2_1_1_2_0_0.rhsIdx_val_of_single rfl i q
theorem rhsPV_2 (i : S1x2048x512.Idx) (q : dot_S1x2048x1024_S1x1024x512_S1x2048x512_2_1_1_2_0_0.contr.Idx) :
    (dot_S1x2048x1024_S1x1024x512_S1x2048x512_2_1_1_2_0_0.rhsIdx i q 2).val = (i 2).val := by
  unfold DotDims.rhsIdx
  rw [dif_neg (show ¬(2 : Fin S1x1024x512.rank) ∈ dot_S1x2048x1024_S1x1024x512_S1x2048x512_2_1_1_2_0_0.rhsBatch by decide), dif_pos (show (2 : Fin S1x1024x512.rank) ∈ dot_S1x2048x1024_S1x1024x512_S1x2048x512_2_1_1_2_0_0.rhsNonContracting by decide)]
  rfl

/-- The weights of row `q` applied to feature `d` of the key block's rows. -/
theorem weighted_apply (p : S1x2048x1024.Idx → EReal) (X1 : S1x1024x512.Idx → EReal) (q : Fin 2048) (d : Fin 512) :
    matmul (F := Ideal) dot_S1x2048x1024_S1x1024x512_S1x2048x512_2_1_1_2_0_0 none (φ₁ := .bf16) (φ₂ := .bf16) p X1 (constant S1x2048x512 .f32 0x00000000#32) (ix3 0 q d)
      = ∑ k : Fin 1024, p (ix3 0 q k) * X1 (ix3 0 k d) := by
  simp only [matmul]
  rw [Ideal.matmul_constant_zero_apply, ← Equiv.sum_comp (ValueIdx.contrEquiv1 dot_S1x2048x1024_S1x1024x512_S1x2048x512_2_1_1_2_0_0 1024 rfl rfl).symm]
  refine Finset.sum_congr rfl fun k _ => ?_
  have hk := ValueIdx.contrEquiv1_symm_val dot_S1x2048x1024_S1x1024x512_S1x2048x512_2_1_1_2_0_0 1024 rfl rfl k
  have el : dot_S1x2048x1024_S1x1024x512_S1x2048x512_2_1_1_2_0_0.lhsIdx (ix3 0 q d) ((ValueIdx.contrEquiv1 dot_S1x2048x1024_S1x1024x512_S1x2048x512_2_1_1_2_0_0 1024 rfl rfl).symm k) = ix3 0 q k := funext fun a => Fin.ext (by
    match a with
    | ⟨0, _⟩ => exact lhsPV_0 _ _
    | ⟨1, _⟩ => exact lhsPV_1 _ _
    | ⟨2, _⟩ => exact (lhsPV_2 _ _).trans hk)
  have er : dot_S1x2048x1024_S1x1024x512_S1x2048x512_2_1_1_2_0_0.rhsIdx (ix3 0 q d) ((ValueIdx.contrEquiv1 dot_S1x2048x1024_S1x1024x512_S1x2048x512_2_1_1_2_0_0 1024 rfl rfl).symm k) = ix3 0 k d := funext fun a => Fin.ext (by
    match a with
    | ⟨0, _⟩ => exact rhsPV_0 _ _
    | ⟨1, _⟩ => exact (rhsPV_1 _ _).trans hk
    | ⟨2, _⟩ => exact rhsPV_2 _ _)
  rw [el, er]

/-- The new running weighted sum of row `q`, feature `d`. -/
theorem newAcc_apply (X0 : S1x2048x512.Idx → EReal) (X1 : S1x1024x512.Idx → EReal) (m : S1x2048x1.Idx → EReal)
    (a : S1x2048x512.Idx → EReal) (q : Fin 2048) (d : Fin 512) :
    k0_pay1 (F := Ideal) (k0_pay7 (F := Ideal) X1) (k0_pay13 (F := Ideal) X0 X1 m m a) (k0_pay14 (F := Ideal) X0 X1 m) (ix3 0 q d)
      = stepAcc (m (ix3 0 q 0)) (a (ix3 0 q d)) (rowScore X0 X1 q) (fun k => X1 (ix3 0 k d)) := by
  unfold k0_pay1 k0_pay13 k0_pay14 k0_pay7
  (try dsimp only)
  rw [shapeCast_self, addf_apply, mulf_apply, spreadFeatures_apply, rescale_apply]
  unfold stepAcc
  refine congrArg (fun z : EReal => Ideal.exp (m (ix3 0 q 0) - stepMax (m (ix3 0 q 0)) (rowScore X0 X1 q)) * a (ix3 0 q d) + z) ?_
  refine (weighted_apply _ X1 q d).trans ?_
  exact Finset.sum_congr rfl fun k _ => congrArg (· * _) (weights_apply X0 X1 m q k)

/-- The output entry of row `q`, feature `d`: the weighted sum times the reciprocal of the denominator. -/
theorem out_apply (l : S1x2048x1.Idx → EReal) (a : S1x2048x512.Idx → EReal) (q : Fin 2048) (d : Fin 512) :
    k0_pay3 (F := Ideal) l a (ix3 0 q d) = a (ix3 0 q d) * Ideal.div 1 (l (ix3 0 q 0)) := by
  unfold k0_pay3
  (try dsimp only)
  rw [mulf_apply, spreadFeatures_apply, divf_apply, broadcast_apply]
  show _ * Ideal.div (Ideal.ofBits .f32 0x3F800000#32) _ = _
  rw [Cert.Fin.ofBits_one]

/-- The starting maximum is `−∞` in every row. -/
theorem startMax_apply (y : S1x2048x1.Idx) : k0_pay4 (F := Ideal) y = ⊥ := by
  unfold k0_pay4
  (try dsimp only)
  rw [shapeCast_self, broadcast_apply]
  exact ofBits_neg_inf

/-- The starting denominator is zero in every row. -/
theorem startDen_apply (y : S1x2048x1.Idx) : k0_pay5 (F := Ideal) y = 0 := by
  unfold k0_pay5
  (try dsimp only)
  rw [shapeCast_self, broadcast_apply]
  exact Ideal.ofBits_zero_f32

/-- The starting weighted sum is zero everywhere. -/
theorem startAcc_apply (y : S1x2048x512.Idx) : k0_pay6 (F := Ideal) y = 0 := by
  unfold k0_pay6
  (try dsimp only)
  rw [shapeCast_self, broadcast_apply]
  exact Ideal.ofBits_zero_f32

/-- Storing the maximum does not change it. -/
theorem keepMax_eq (v : S1x2048x1.Idx → EReal) : k0_pay2 (F := Ideal) v = v := by
  unfold k0_pay2
  exact shapeCast_self _ _

/-- ONE BATCH ELEMENT, START TO END. With the query block `X0` and the two key blocks `X1a` (keys 0–1023) and `X1b`
    (keys 1024–2047): the buffers a first point leaves, taken up by a second point, give in the output block at row
    `q`, feature `d`, the two streamed steps followed by the normalisation. -/
theorem block_out (X0 : S1x2048x512.Idx → EReal) (X1a X1b : S1x1024x512.Idx → EReal) (q : Fin 2048) (d : Fin 512) :
    k0_pay3 (F := Ideal)
        (k0_pay12 (F := Ideal) X0 X1b (k0_pay2 (F := Ideal) (k0_pay9 (F := Ideal) X0 X1a (k0_pay4 (F := Ideal))))
          (k0_pay2 (F := Ideal) (k0_pay9 (F := Ideal) X0 X1a (k0_pay4 (F := Ideal))))
          (k0_pay12 (F := Ideal) X0 X1a (k0_pay4 (F := Ideal)) (k0_pay4 (F := Ideal)) (k0_pay5 (F := Ideal))))
        (k0_pay1 (F := Ideal) (k0_pay7 (F := Ideal) X1b)
          (k0_pay13 (F := Ideal) X0 X1b (k0_pay2 (F := Ideal) (k0_pay9 (F := Ideal) X0 X1a (k0_pay4 (F := Ideal))))
            (k0_pay2 (F := Ideal) (k0_pay9 (F := Ideal) X0 X1a (k0_pay4 (F := Ideal))))
            (k0_pay1 (F := Ideal) (k0_pay7 (F := Ideal) X1a) (k0_pay13 (F := Ideal) X0 X1a (k0_pay4 (F := Ideal)) (k0_pay4 (F := Ideal)) (k0_pay6 (F := Ideal))) (k0_pay14 (F := Ideal) X0 X1a (k0_pay4 (F := Ideal)))))
          (k0_pay14 (F := Ideal) X0 X1b (k0_pay2 (F := Ideal) (k0_pay9 (F := Ideal) X0 X1a (k0_pay4 (F := Ideal))))))
        (ix3 0 q d)
      = stepAcc (stepMax ⊥ (rowScore X0 X1a q)) (stepAcc ⊥ 0 (rowScore X0 X1a q) (fun k => X1a (ix3 0 k d)))
            (rowScore X0 X1b q) (fun k => X1b (ix3 0 k d))
          * Ideal.div 1 (stepDen (stepMax ⊥ (rowScore X0 X1a q)) (stepDen ⊥ 0 (rowScore X0 X1a q)) (rowScore X0 X1b q)) := by
  rw [out_apply, newDen_apply, newAcc_apply, keepMax_eq, newMax_apply, newDen_apply, newAcc_apply, startMax_apply,
    startDen_apply, startAcc_apply]

end Cert.KernelIdeal.Rows
end
-- ==== Proof.Attention.lean ====
/-
  The whole result array, as one function of the two argument arrays: for batch `b`, query row `q` and
  feature `d`, the softmax over the keys `k` of the scores `Σ_d' Q[b,q,d'] · E[b,k,d']`, applied to the
  value entries `E[b,k,d]` — in the one-pass form, and in the form that streams the keys in two blocks of 1024.
-/
import proofs.«427594_j86251533238989_3_alg».proof.Proof.Softmax
import Idealize.ShloMosaic.Lib.ValueIdx

noncomputable section

namespace Cert.Attn

open Idealize.ShloMosaic Idealize.ShloMosaic.ValueIdx Cert.Fin
open scoped BigOperators

/-- The shape of both arguments and of the result: batch × sequence × feature. -/
abbrev SArr : Shape := ⟨3, ![8, 2048, 512]⟩

/-- The score of query row `q` against key row `k` in batch `b`: their inner product over the features. -/
def score (Q E : SArr.Idx → EReal) (b : Fin 8) (q k : Fin 2048) : EReal :=
  ∑ d : Fin 512, Q (ix3 b q d) * E (ix3 b k d)

/-- The result array in the one-pass form. -/
def attend (Q E : SArr.Idx → EReal) : SArr.Idx → EReal := fun i =>
  softmaxDot (score Q E (i 0) (i 1)) (fun k => E (ix3 (i 0) k (i 2)))

/-- The result array in the streaming form: keys 0–1023, then keys 1024–2047, then the normalisation. -/
def attendOnline (Q E : SArr.Idx → EReal) : SArr.Idx → EReal := fun i =>
  stepAcc (stepMax ⊥ (fun k => score Q E (i 0) (i 1) (lo k)))
      (stepAcc ⊥ 0 (fun k => score Q E (i 0) (i 1) (lo k)) (fun k => E (ix3 (i 0) (lo k) (i 2))))
      (fun k => score Q E (i 0) (i 1) (hi k)) (fun k => E (ix3 (i 0) (hi k) (i 2)))
    * Ideal.div 1 (stepDen (stepMax ⊥ (fun k => score Q E (i 0) (i 1) (lo k)))
        (stepDen ⊥ 0 (fun k => score Q E (i 0) (i 1) (lo k))) (fun k => score Q E (i 0) (i 1) (hi k)))

/-- A score of finite arrays is finite: a finite sum of products. -/
theorem score_fin {Q E : SArr.Idx → EReal} (hQ : AllFin Q) (hE : AllFin E) (b : Fin 8) (q k : Fin 2048) :
    IsFin (score Q E b q k) :=
  isFin_sum _ _ fun d _ => (hQ _).mul (hE _)

/-- For finite arguments the streaming form is the one-pass form. -/
theorem attendOnline_eq {Q E : SArr.Idx → EReal} (hQ : AllFin Q) (hE : AllFin E) :
    attendOnline Q E = attend Q E :=
  funext fun i => online_two_blocks (score Q E (i 0) (i 1)) (fun k => E (ix3 (i 0) k (i 2)))
    (fun k => score_fin hQ hE (i 0) (i 1) k) (fun k => hE _)

end Cert.Attn

end
-- ==== Proof.Blocks.lean ====
/-
  From blocks to the whole result array.

  The grid has 16 points; point `t` works on batch element `t / 2`, the even points on keys 0–1023 and the odd points
  on keys 1024–2047. Only the odd points write the output block back, and block `t` of the result array is the
  whole [2048, 512] slab of batch element `t / 2`. At an odd point the three running buffers are what the even
  point just before it left, so the block written back is, entry by entry, the two streamed steps over the batch
  element's two key blocks followed by the normalisation: the streaming form of attention, read at that slab. The
  eight odd points' slabs tile the array.
-/
import proofs.«427594_j86251533238989_3_alg».proof.Proof.Gen.KernelIdeal.Value
import proofs.«427594_j86251533238989_3_alg».proof.Proof.Steps
import proofs.«427594_j86251533238989_3_alg».proof.Proof.Rows
import proofs.«427594_j86251533238989_3_alg».proof.Proof.Attention

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Blocks

open Cert.KernelIdeal Cert.KernelIdeal.Gen Cert.KernelIdeal.Value Cert.KernelIdeal.Rows Cert.Attn

variable (m : (ℓ : Loc nD τ sig) → Buf (Elt Ideal) ℓ) (ρ : Dev nD → PrngReg)

/-- The decoder array (the queries), as the kernel finds it. -/
abbrev qArr (c : Dev nD) : SArr.Idx → EReal := V m c main_arg1
/-- The encoder array (the keys, which are also the values), as the kernel finds it. -/
abbrev eArr (c : Dev nD) : SArr.Idx → EReal := V m c main_arg0
/-- The query block of point `t`. -/
abbrev qblk (c : Dev nD) (t : Fin cfg0.N) : S1x2048x512.Idx → EReal := iblk m c 0 t
/-- The key block of point `t`. -/
abbrev kblk (c : Dev nD) (t : Fin cfg0.N) : S1x1024x512.Idx → EReal := iblk m c 1 t

/-- The printed index maps, decided over the grid: every window's batch index is `t / 2`; the key window's block
    along the sequence is `t % 2`; every other index is zero. -/
theorem idx_facts : ∀ t : Fin cfg0.N,
    win0_0.index t (0 : Fin 3) = t.val / 2 ∧ win0_0.index t (1 : Fin 3) = 0 ∧ win0_0.index t (2 : Fin 3) = 0
    ∧ win0_1.index t (0 : Fin 3) = t.val / 2 ∧ win0_1.index t (1 : Fin 3) = t.val % 2 ∧ win0_1.index t (2 : Fin 3) = 0
    ∧ win0_2.index t (0 : Fin 3) = t.val / 2 ∧ win0_2.index t (1 : Fin 3) = 0 ∧ win0_2.index t (2 : Fin 3) = 0 :=
  (by decide +kernel : ∀ t : Fin grid0.N, _)

/-- The query block of point `t` is the slab of batch element `t / 2` of the decoder array. -/
theorem qblk_apply (c : Dev nD) (t : Fin cfg0.N) (b : Fin 8) (hb : b.val = t.val / 2) (q : Fin 2048) (d : Fin 512) :
    qblk m c t (ix3 0 q d) = qArr m c (ix3 b q d) := by
  obtain ⟨e0, e1, e2, -, -, -, -, -, -⟩ := idx_facts t
  show V m c main_arg1 (((cfg0.win 0).blk t).view.emb (ix3 0 q d)) = V m c main_arg1 (ix3 b q d)
  refine congrArg (V m c main_arg1) (funext fun a => Fin.ext ?_)
  match a with
  | ⟨0, _⟩ => show win0_0.index t (0 : Fin 3) * 1 + 1 * 0 = b.val; omega
  | ⟨1, _⟩ => show win0_0.index t (1 : Fin 3) * 2048 + 1 * q.val = q.val; omega
  | ⟨2, _⟩ => show win0_0.index t (2 : Fin 3) * 512 + 1 * d.val = d.val; omega

/-- The key block of point `t` is rows `1024 · (t % 2)` onwards of batch element `t / 2` of the encoder array. -/
theorem kblk_apply (c : Dev nD) (t : Fin cfg0.N) (b : Fin 8) (hb : b.val = t.val / 2) (k : Fin 1024) (kk : Fin 2048)
    (hk : kk.val = t.val % 2 * 1024 + k.val) (d : Fin 512) :
    kblk m c t (ix3 0 k d) = eArr m c (ix3 b kk d) := by
  obtain ⟨-, -, -, e0, e1, e2, -, -, -⟩ := idx_facts t
  show V m c main_arg0 (((cfg0.win 1).blk t).view.emb (ix3 0 k d)) = V m c main_arg0 (ix3 b kk d)
  refine congrArg (V m c main_arg0) (funext fun a => Fin.ext ?_)
  match a with
  | ⟨0, _⟩ => show win0_1.index t (0 : Fin 3) * 1 + 1 * 0 = b.val; omega
  | ⟨1, _⟩ => show win0_1.index t (1 : Fin 3) * 1024 + 1 * k.val = kk.val; omega
  | ⟨2, _⟩ => show win0_1.index t (2 : Fin 3) * 512 + 1 * d.val = d.val; omega

/-- An entry of the output block of point `t` sits in the slab of batch element `t / 2` of the result array. -/
theorem oblk_emb (t : Fin cfg0.N) (b : Fin 8) (hb : b.val = t.val / 2) (q : Fin 2048) (d : Fin 512) :
    ((cfg0.win 2).blk t).view.emb (ix3 0 q d) = (ix3 b q d : SArr.Idx) := by
  obtain ⟨-, -, -, -, -, -, e0, e1, e2⟩ := idx_facts t
  refine funext fun a => Fin.ext ?_
  match a with
  | ⟨0, _⟩ => show win0_2.index t (0 : Fin 3) * 1 + 1 * 0 = b.val; omega
  | ⟨1, _⟩ => show win0_2.index t (1 : Fin 3) * 2048 + 1 * q.val = q.val; omega
  | ⟨2, _⟩ => show win0_2.index t (2 : Fin 3) * 512 + 1 * d.val = d.val; omega

/-! ## What an even point leaves in the three running buffers -/

/-- After an even point the maximum buffer holds the first streamed step's maximum for the point's blocks. -/
theorem found_max (c : Dev nD) (n : ℕ) (hn : n < cfg0.N) (h0 : n % 2 = 0) :
    (outsAt0 m c n hn).2.1 = (k0_pay2 (F := Ideal) (k0_pay9 (F := Ideal) (qblk m c ⟨n, hn⟩) (kblk m c ⟨n, hn⟩) (k0_pay4 (F := Ideal)))) := by
  have h1 : ¬n % 2 = 1 := by omega
  rw [outsAt0_A m c ⟨n, hn⟩ h0 h1]
  dsimp only
  exact Steps.max_first c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) scM0_0 (Memref.isWhole_whole _) scM0_1 (Memref.isWhole_whole _) scM0_2 (Memref.isWhole_whole _) ((hcond0_0 (⟨n, hn⟩ : Fin cfg0.N)).mpr h0) (fun h => h1 ((hcond0_1 (⟨n, hn⟩ : Fin cfg0.N)).mp h)) (iblk m c 0 (⟨n, hn⟩ : Fin cfg0.N)) (iblk m c 1 (⟨n, hn⟩ : Fin cfg0.N))

/-- After an even point the denominator buffer holds the first streamed step's denominator. -/
theorem found_den (c : Dev nD) (n : ℕ) (hn : n < cfg0.N) (h0 : n % 2 = 0) :
    (outsAt0 m c n hn).2.2.1 = (k0_pay12 (F := Ideal) (qblk m c ⟨n, hn⟩) (kblk m c ⟨n, hn⟩) (k0_pay4 (F := Ideal)) (k0_pay4 (F := Ideal)) (k0_pay5 (F := Ideal))) := by
  have h1 : ¬n % 2 = 1 := by omega
  rw [outsAt0_A m c ⟨n, hn⟩ h0 h1]
  dsimp only
  exact Steps.den_first c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) scM0_0 (Memref.isWhole_whole _) scM0_1 (Memref.isWhole_whole _) scM0_2 (Memref.isWhole_whole _) ((hcond0_0 (⟨n, hn⟩ : Fin cfg0.N)).mpr h0) (fun h => h1 ((hcond0_1 (⟨n, hn⟩ : Fin cfg0.N)).mp h)) (iblk m c 0 (⟨n, hn⟩ : Fin cfg0.N)) (iblk m c 1 (⟨n, hn⟩ : Fin cfg0.N))

/-- After an even point the weighted-sum buffer holds the first streamed step's weighted sum. -/
theorem found_acc (c : Dev nD) (n : ℕ) (hn : n < cfg0.N) (h0 : n % 2 = 0) :
    (outsAt0 m c n hn).2.2.2 = (k0_pay1 (F := Ideal) (k0_pay7 (F := Ideal) (kblk m c ⟨n, hn⟩)) (k0_pay13 (F := Ideal) (qblk m c ⟨n, hn⟩) (kblk m c ⟨n, hn⟩) (k0_pay4 (F := Ideal)) (k0_pay4 (F := Ideal)) (k0_pay6 (F := Ideal))) (k0_pay14 (F := Ideal) (qblk m c ⟨n, hn⟩) (kblk m c ⟨n, hn⟩) (k0_pay4 (F := Ideal)))) := by
  have h1 : ¬n % 2 = 1 := by omega
  rw [outsAt0_A m c ⟨n, hn⟩ h0 h1]
  dsimp only
  exact Steps.acc_first c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) scM0_0 (Memref.isWhole_whole _) scM0_1 (Memref.isWhole_whole _) scM0_2 (Memref.isWhole_whole _) ((hcond0_0 (⟨n, hn⟩ : Fin cfg0.N)).mpr h0) (fun h => h1 ((hcond0_1 (⟨n, hn⟩ : Fin cfg0.N)).mp h)) (iblk m c 0 (⟨n, hn⟩ : Fin cfg0.N)) (iblk m c 1 (⟨n, hn⟩ : Fin cfg0.N))

/-! ## The block an odd point writes back -/

/-- Two points of the same batch element see the same query block. -/
theorem qblk_congr (c : Dev nD) (t t' : Fin cfg0.N) (h : t'.val / 2 = t.val / 2) : qblk m c t' = qblk m c t := by
  have hN : cfg0.N = 16 := N_0
  have hlt := t.isLt
  funext y
  obtain ⟨z, q, d, rfl⟩ : ∃ (z : Fin 1) (q : Fin 2048) (d : Fin 512), y = ix3 z q d := ⟨y 0, y 1, y 2, eq_ix3 y⟩
  obtain rfl : z = 0 := Subsingleton.elim _ _
  rw [qblk_apply m c t' ⟨t.val / 2, by omega⟩ h.symm q d, qblk_apply m c t ⟨t.val / 2, by omega⟩ rfl q d]

/-- The scores of a query row against the key block of point `t` are its scores against rows
    `1024 · (t % 2)` onwards of the batch element. -/
theorem rowScore_eq (c : Dev nD) (t : Fin cfg0.N) (b : Fin 8) (hb : b.val = t.val / 2) (q : Fin 2048)
    (kk : Fin 1024 → Fin 2048) (hkk : ∀ k, (kk k).val = t.val % 2 * 1024 + k.val) :
    rowScore (qblk m c t) (kblk m c t) q = fun k => score (qArr m c) (eArr m c) b q (kk k) := by
  funext k
  unfold rowScore score
  exact Finset.sum_congr rfl fun d _ => by rw [qblk_apply m c t b hb q d, kblk_apply m c t b hb k (kk k) (hkk k) d]

/-- The value entries of the key block of point `t`. -/
theorem values_eq (c : Dev nD) (t : Fin cfg0.N) (b : Fin 8) (hb : b.val = t.val / 2) (d : Fin 512)
    (kk : Fin 1024 → Fin 2048) (hkk : ∀ k, (kk k).val = t.val % 2 * 1024 + k.val) :
    (fun k => kblk m c t (ix3 0 k d)) = fun k => eArr m c (ix3 b (kk k) d) :=
  funext fun k => kblk_apply m c t b hb k (kk k) (hkk k) d

/-- THE BLOCK OF AN ODD POINT: with the buffers the even point before it left, the body's output block at row `q`,
    feature `d` is the streaming form of attention at (`t / 2`, `q`, `d`). -/
theorem block_eq (c : Dev nD) (n : ℕ) (hn : n < cfg0.N) (hn' : n + 1 < cfg0.N) (h0 : n % 2 = 0) (b : Fin 8) (hb : b.val = n / 2)
    (q : Fin 2048) (d : Fin 512) :
    k0_pay3 (F := Ideal) (k0_pay12 (F := Ideal) (qblk m c ⟨n + 1, hn'⟩) (kblk m c ⟨n + 1, hn'⟩) (k0_pay2 (F := Ideal) (k0_pay9 (F := Ideal) (qblk m c ⟨n, hn⟩) (kblk m c ⟨n, hn⟩) (k0_pay4 (F := Ideal)))) (k0_pay2 (F := Ideal) (k0_pay9 (F := Ideal) (qblk m c ⟨n, hn⟩) (kblk m c ⟨n, hn⟩) (k0_pay4 (F := Ideal)))) (k0_pay12 (F := Ideal) (qblk m c ⟨n, hn⟩) (kblk m c ⟨n, hn⟩) (k0_pay4 (F := Ideal)) (k0_pay4 (F := Ideal)) (k0_pay5 (F := Ideal)))) (k0_pay1 (F := Ideal) (k0_pay7 (F := Ideal) (kblk m c ⟨n + 1, hn'⟩)) (k0_pay13 (F := Ideal) (qblk m c ⟨n + 1, hn'⟩) (kblk m c ⟨n + 1, hn'⟩) (k0_pay2 (F := Ideal) (k0_pay9 (F := Ideal) (qblk m c ⟨n, hn⟩) (kblk m c ⟨n, hn⟩) (k0_pay4 (F := Ideal)))) (k0_pay2 (F := Ideal) (k0_pay9 (F := Ideal) (qblk m c ⟨n, hn⟩) (kblk m c ⟨n, hn⟩) (k0_pay4 (F := Ideal)))) (k0_pay1 (F := Ideal) (k0_pay7 (F := Ideal) (kblk m c ⟨n, hn⟩)) (k0_pay13 (F := Ideal) (qblk m c ⟨n, hn⟩) (kblk m c ⟨n, hn⟩) (k0_pay4 (F := Ideal)) (k0_pay4 (F := Ideal)) (k0_pay6 (F := Ideal))) (k0_pay14 (F := Ideal) (qblk m c ⟨n, hn⟩) (kblk m c ⟨n, hn⟩) (k0_pay4 (F := Ideal))))) (k0_pay14 (F := Ideal) (qblk m c ⟨n + 1, hn'⟩) (kblk m c ⟨n + 1, hn'⟩) (k0_pay2 (F := Ideal) (k0_pay9 (F := Ideal) (qblk m c ⟨n, hn⟩) (kblk m c ⟨n, hn⟩) (k0_pay4 (F := Ideal)))))) (ix3 0 q d)
      = attendOnline (qArr m c) (eArr m c) (ix3 b q d) := by
  have hq : qblk m c ⟨n, hn⟩ = qblk m c ⟨n + 1, hn'⟩ := qblk_congr m c ⟨n + 1, hn'⟩ ⟨n, hn⟩ (by show n / 2 = (n + 1) / 2; omega)
  rw [hq, block_out,
    rowScore_eq m c ⟨n + 1, hn'⟩ b (by show b.val = (n + 1) / 2; omega) q hi (fun k => by show 1024 + k.val = (n + 1) % 2 * 1024 + k.val; omega),
    values_eq m c ⟨n + 1, hn'⟩ b (by show b.val = (n + 1) / 2; omega) d hi (fun k => by show 1024 + k.val = (n + 1) % 2 * 1024 + k.val; omega),
    ← hq,
    rowScore_eq m c ⟨n, hn⟩ b hb q lo (fun k => by show k.val = n % 2 * 1024 + k.val; omega),
    values_eq m c ⟨n, hn⟩ b hb d lo (fun k => by show k.val = n % 2 * 1024 + k.val; omega)]
  rfl

/-- WHAT AN ODD POINT WRITES BACK is its block of the streaming form of attention of the two argument arrays. -/
theorem flushed_eq (c : Dev nD) (t : Fin cfg0.N) (hf : (cfg0.win 2).flush t = true) :
    (dats m 0 c).flushed 2 t
      = ((cfg0.win 2).blk t).view.read (Elt Ideal) (attendOnline (qArr m c) (eArr m c)) := by
  have h1 : t.val % 2 = 1 := (flush0_2 t).mp hf
  have h0 : ¬t.val % 2 = 0 := by omega
  have hN : cfg0.N = 16 := N_0
  obtain ⟨n, hn', rfl⟩ : ∃ (n : ℕ) (hn' : n + 1 < cfg0.N), t = ⟨n + 1, hn'⟩ :=
    ⟨t.val - 1, by have := t.isLt; omega, Fin.ext (by show t.val = t.val - 1 + 1; omega)⟩
  have hn : n < cfg0.N := Nat.lt_of_succ_lt hn'
  have hn0 : n % 2 = 0 := by have : (n + 1) % 2 = 1 := h1; omega
  rw [flushed2_B m c ⟨n + 1, hn'⟩ h0 h1, Steps.out_second]
  show (cfg0.win 2).cut (grid0.coords ⟨n + 1, hn'⟩) (k0_pay3 (F := Ideal) (k0_pay12 (F := Ideal) (qblk m c ⟨n + 1, hn'⟩) (kblk m c ⟨n + 1, hn'⟩) (outsAt0 m c n hn).2.1 (outsAt0 m c n hn).2.1 (outsAt0 m c n hn).2.2.1) (k0_pay1 (F := Ideal) (k0_pay7 (F := Ideal) (kblk m c ⟨n + 1, hn'⟩)) (k0_pay13 (F := Ideal) (qblk m c ⟨n + 1, hn'⟩) (kblk m c ⟨n + 1, hn'⟩) (outsAt0 m c n hn).2.1 (outsAt0 m c n hn).2.1 (outsAt0 m c n hn).2.2.2) (k0_pay14 (F := Ideal) (qblk m c ⟨n + 1, hn'⟩) (kblk m c ⟨n + 1, hn'⟩) (outsAt0 m c n hn).2.1))) = _
  rw [found_max m c n hn hn0, found_den m c n hn hn0, found_acc m c n hn hn0]
  funext y
  obtain ⟨z, q, d, rfl⟩ : ∃ (z : Fin 1) (q : Fin 2048) (d : Fin 512), y = ix3 z q d := ⟨y 0, y 1, y 2, eq_ix3 y⟩
  obtain rfl : z = 0 := Subsingleton.elim _ _
  have hb : (⟨n / 2, by omega⟩ : Fin 8).val = n / 2 := rfl
  refine (block_eq m c n hn hn' hn0 ⟨n / 2, by omega⟩ hb q d).trans ?_
  exact congrArg (attendOnline (qArr m c) (eArr m c)) (oblk_emb ⟨n + 1, hn'⟩ ⟨n / 2, by omega⟩ (by show n / 2 = (n + 1) / 2; omega) q d).symm

/-- An index of the result array is in point `t`'s block iff each coordinate is in the block's range on its axis. -/
theorem mem_blk (t : Fin cfg0.N) (i : SArr.Idx) :
    i ∈ ((cfg0.win 2).blk t).view.set ↔ ∀ a : Fin 3, win0_2.index t a * S1x2048x512.size a ≤ (i a).val ∧ (i a).val < win0_2.index t a * S1x2048x512.size a + S1x2048x512.size a := by
  show i ∈ ((View.whole main_v0).slice (win0_2.rect t)).set ↔ _
  rw [View.set_slice_whole, Rect.mem_set_unit]
  exact Iff.rfl

/-- THE RESULT ARRAY after the run is the streaming form of attention of the two argument arrays: the slab of batch
    element `b` is the block the odd point `2b + 1` wrote back. -/
theorem final (c : Dev nD) : (dats m 0 c).arrAt 2 cfg0.N = attendOnline (qArr m c) (eArr m c) :=
  (dats m 0 c).arrAt_eq_of_cover 2 (attendOnline (qArr m c) (eArr m c)) (flushed_eq m c) fun i => by
    have hN : cfg0.N = 16 := N_0
    have hi0 : (i 0).val < 8 := (i 0).isLt
    have hi1 : (i 1).val < 2048 := (i 1).isLt
    have hi2 : (i 2).val < 512 := (i 2).isLt
    have ht : 2 * (i 0).val + 1 < cfg0.N := by omega
    refine ⟨⟨2 * (i 0).val + 1, ht⟩, (flush0_2 _).mpr (by show (2 * (i 0).val + 1) % 2 = 1; omega), ?_⟩
    obtain ⟨-, -, -, -, -, -, e0, e1, e2⟩ := idx_facts ⟨2 * (i 0).val + 1, ht⟩
    have e0' : win0_2.index ⟨2 * (i 0).val + 1, ht⟩ (0 : Fin 3) = (i 0).val := by rw [e0]; show (2 * (i 0).val + 1) / 2 = (i 0).val; omega
    rw [mem_blk]
    intro a
    match a with
    | ⟨0, _⟩ => show win0_2.index ⟨2 * (i 0).val + 1, ht⟩ (0 : Fin 3) * 1 ≤ (i 0).val ∧ (i 0).val < win0_2.index ⟨2 * (i 0).val + 1, ht⟩ (0 : Fin 3) * 1 + 1; omega
    | ⟨1, _⟩ => show win0_2.index ⟨2 * (i 0).val + 1, ht⟩ (1 : Fin 3) * 2048 ≤ (i 1).val ∧ (i 1).val < win0_2.index ⟨2 * (i 0).val + 1, ht⟩ (1 : Fin 3) * 2048 + 2048; omega
    | ⟨2, _⟩ => show win0_2.index ⟨2 * (i 0).val + 1, ht⟩ (2 : Fin 3) * 512 ≤ (i 2).val ∧ (i 2).val < win0_2.index ⟨2 * (i 0).val + 1, ht⟩ (2 : Fin 3) * 512 + 512; omega

/-- The kernel's run, read: the result array ends at the streaming form of attention of the arguments, which end
    unchanged. -/
theorem run : θ_run defs (onTc (τ := τ) (main (F := Ideal))) ⟨m, fun _ => 0, ρ⟩ fun r => ∀ c : Dev nD,
      r.2.mem ((c : Thread nD τ).loc main_v0)
          = attendOnline (m ((c : Thread nD τ).loc main_arg1)) (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Blocks

end
-- ==== Proof.Reference.lean ====
/-
  The reference program computes the one-pass form: its scores are the batched product of the decoder rows
  with the encoder rows, its row maximum the fold of `max` from `−∞`, its weights `exp (score − max)` divided
  by their sum, and its result the batched product of the weights with the encoder rows.
-/
import proofs.«427594_j86251533238989_3_alg».proof.Proof.Attention
import proofs.«427594_j86251533238989_3_alg».proof.Proof.Gen.ReferenceIdeal.Read

noncomputable section

namespace Cert.Attn

open Idealize.ShloMosaic Idealize.ShloMosaic.ValueIdx Cert.Fin
open scoped BigOperators

/-! ## The stages of the reference, one at a time

Each stage is read at an index given by its coordinates: `(b, q, k)` for the arrays over batch × query × key,
`(b, q)` for the arrays over batch × query. -/

section Stages
open Cert.ReferenceIdeal Cert.ReferenceIdeal.Gen Cert.ReferenceIdeal.Read

/-- The scores: the first batched product at `(b, q, k)` is the inner product, over the features, of decoder
    row `q` with encoder row `k` of batch `b`. -/
private theorem scores_eq (E Q : SArr.Idx → EReal) (b : Fin 8) (q k : Fin 2048) :
    val_main_v0 (F := Ideal) E Q (ix3 b q k) = score Q E b q k := by
  rw [val_main_v0_apply]
  unfold score
  refine Finset.sum_congr rfl fun d _ => ?_
  have el : lidx_main_v0 (ix3 b q k) d = ix3 b q d :=
    funext fun a => Fin.ext (by match a with | ⟨0, _⟩ => rfl | ⟨1, _⟩ => rfl | ⟨2, _⟩ => rfl)
  have er : ridx_main_v0 (ix3 b q k) d = ix3 b k d :=
    funext fun a => Fin.ext (by match a with | ⟨0, _⟩ => rfl | ⟨1, _⟩ => rfl | ⟨2, _⟩ => rfl)
  rw [el, er]

/-- The value the row maximum starts from is `−∞`, the bottom of the extended reals. -/
private theorem neg_inf_eq : val_main_cst (F := Ideal) (Shape.Idx.first h_S_) = (⊥ : EReal) := by
  rw [val_main_cst_apply, Ideal.ofBits_def, ofBits_neg_inf]

/-- The row maximum: `max` is commutative and associative, so the reduction over the key axis at `(b, q)` is the
    fold of `max` from `−∞` over the keys `k` of the scores at `(b, q, k)`. -/
private theorem rowmax_eq (E Q : SArr.Idx → EReal) (b : Fin 8) (q : Fin 2048) :
    val_main_v1 (F := Ideal) E Q (ix2 b q) = vmax (score Q E b q) := by
  unfold val_main_v1
  have h : S8x2048x2048.Reduces [2] S8x2048 := by decide
  rw [Host.reduce_eq_fold_single _ _ _ reducesTo_S8x2048x2048_S8x2048_d2 h h_S_, neg_inf_eq]
  unfold vmax
  refine Finset.fold_congr fun k _ => ?_
  -- the index `(b, q)` with the key `k` put back on the reduced axis is `(b, q, k)`
  have e : h.lift (ix2 b q) k = ix3 (n2 := 2048) b q k :=
    funext fun a => Fin.ext (by match a with | ⟨0, _⟩ => rfl | ⟨1, _⟩ => rfl | ⟨2, _⟩ => rfl)
  show val_main_v0 (F := Ideal) E Q (h.lift (ix2 b q) k) = score Q E b q k
  rw [e]
  exact scores_eq E Q b q k

/-- The shift: the row maximum joined with `−∞`, the same for every key of the row. -/
private theorem shift_eq (E Q : SArr.Idx → EReal) (b : Fin 8) (q k : Fin 2048) :
    val_main_v5 (F := Ideal) E Q (ix3 b q k) = max ⊥ (vmax (score Q E b q)) := by
  have e : idx_main_v4 (idx_main_v5 (ix3 b q k)) = ix2 b q :=
    funext fun a => Fin.ext (by match a with | ⟨0, _⟩ => rfl | ⟨1, _⟩ => rfl)
  rw [val_main_v5_apply, val_main_v4_apply, e, val_main_v3_apply, val_main_v2_apply, val_main_cst_0_apply,
    rowmax_eq, Ideal.maximumf_def, Ideal.ofBits_def, ofBits_neg_inf]

/-- The weights before normalisation: `exp (score − shift)`. -/
private theorem weight_eq (E Q : SArr.Idx → EReal) (b : Fin 8) (q k : Fin 2048) :
    val_main_v7 (F := Ideal) E Q (ix3 b q k)
      = Ideal.exp (score Q E b q k - max ⊥ (vmax (score Q E b q))) := by
  rw [val_main_v7_apply, val_main_v6_apply, scores_eq, shift_eq, Ideal.hostUnary_exp_def, Ideal.subf_def]

/-- The denominator: zero plus the sum of the row's weights over the keys. -/
private theorem denom_eq (E Q : SArr.Idx → EReal) (b : Fin 8) (q : Fin 2048) :
    val_main_v8 (F := Ideal) E Q (ix2 b q)
      = 0 + ∑ j, Ideal.exp (score Q E b q j - max ⊥ (vmax (score Q E b q))) := by
  rw [val_main_v8_apply, val_main_cst_1_apply, Ideal.ofBits_def, ofBits_zero]
  refine congrArg (0 + ·) (Finset.sum_congr rfl fun j _ => ?_)
  have e : idx_main_v8 (ix2 b q) j = ix3 b q j :=
    funext fun a => Fin.ext (by match a with | ⟨0, _⟩ => rfl | ⟨1, _⟩ => rfl | ⟨2, _⟩ => rfl)
  rw [e, weight_eq]

/-- The normalised weights: each weight divided by its row's denominator. -/
private theorem normalised_eq (E Q : SArr.Idx → EReal) (b : Fin 8) (q k : Fin 2048) :
    val_main_v11 (F := Ideal) E Q (ix3 b q k)
      = Ideal.div (Ideal.exp (score Q E b q k - max ⊥ (vmax (score Q E b q))))
          (0 + ∑ j, Ideal.exp (score Q E b q j - max ⊥ (vmax (score Q E b q)))) := by
  have e : idx_main_v9 (idx_main_v10 (ix3 b q k)) = ix2 b q :=
    funext fun a => Fin.ext (by match a with | ⟨0, _⟩ => rfl | ⟨1, _⟩ => rfl)
  rw [val_main_v11_apply, val_main_v10_apply, val_main_v9_apply, e, weight_eq, denom_eq, Ideal.hostDivf_def]

end Stages

/-- The reference's last stage, at the extended reals, is the one-pass attention of its arguments
    (`E` the encoder array, the program's first argument; `Q` the decoder array, its second). -/
theorem reference_eq (E Q : SArr.Idx → EReal) :
    Cert.ReferenceIdeal.Read.val_main_v12 (F := Ideal) E Q = attend Q E := by
  funext i
  -- the last batched product at `i = (b, q, d)` is the sum over the keys `k` of the normalised weight at
  -- `(b, q, k)` times the encoder entry at `(b, k, d)`: term by term the one-pass sum
  rw [Cert.ReferenceIdeal.Read.val_main_v12_apply]
  unfold attend softmaxDot
  refine Finset.sum_congr rfl fun k _ => ?_
  have el : Cert.ReferenceIdeal.Read.lidx_main_v12 i k = ix3 (n0 := 8) (n1 := 2048) (n2 := 2048) (i 0) (i 1) k :=
    funext fun a => Fin.ext (by match a with | ⟨0, _⟩ => rfl | ⟨1, _⟩ => rfl | ⟨2, _⟩ => rfl)
  have er : Cert.ReferenceIdeal.Read.ridx_main_v12 i k = ix3 (n0 := 8) (n1 := 2048) (n2 := 512) (i 0) k (i 2) :=
    funext fun a => Fin.ext (by match a with | ⟨0, _⟩ => rfl | ⟨1, _⟩ => rfl | ⟨2, _⟩ => rfl)
  rw [el, er]
  exact congrArg (· * E (ix3 (n0 := 8) (n1 := 2048) (n2 := 512) (i 0) k (i 2))) (normalised_eq E Q (i 0) (i 1) k)

end Cert.Attn

end
-- ==== Proof.Finite.lean ====
/-
  The precondition says that every entry of both argument arrays has absolute value below `+∞`; over the
  extended reals that is: every entry is a real number.
-/
import proofs.«427594_j86251533238989_3_alg».proof.Proof.LibFinite
import proofs.«427594_j86251533238989_3_alg».proof.Proof.Gen.Pre_finite_inputs
import Idealize.ShloMosaic.Lib.ReduceAll

noncomputable section

namespace Cert.Attn

open Idealize.ShloMosaic Cert.Fin

/-- The word of `+∞` denotes the top element of the extended reals. -/
private theorem ofBits_inf : Ideal.ofBits .f32 0x7F800000#32 = ⊤ := by
  simp [Ideal.ofBits, Ideal.ieee]

/-- An extended real whose absolute value `max x (-x)` is strictly below `⊤` is a real number:
    at `⊥` and at `⊤` the absolute value is `⊤`, which is not below itself. -/
private theorem isFin_of_abs_lt_top {x : EReal} (h : max x (-x) < ⊤) : IsFin x := by
  induction x using EReal.rec with
  | bot => simp at h
  | top => simp at h
  | coe r => exact isFin_coe r

/-- The ordered "less than" comparison of two extended reals gives the word one only when the first is
    strictly below the second. -/
private theorem lt_of_cmp_olt {a b : EReal} (h : Ideal.cmp .olt a b = 1#1) : a < b := by
  by_contra hlt
  have h0 : Ideal.cmp .olt a b = 0#1 := by simp [Ideal.cmp, hlt]
  rw [h0] at h
  exact absurd h (by decide)

/-- An array whose entrywise comparison `|x| < +∞` is one at every index is finite. -/
private theorem allFin_of_abs_lt_inf {s : Shape} (x c : FVec Ideal s .f32)
    (hc : ∀ i, c i = Ideal.ofBits .f32 0x7F800000#32)
    (h : ∀ i, cmpf .olt (Host.absf x) c i = 1#1) : AllFin x := by
  intro i
  have hi : Ideal.cmp .olt (max (x i) (-(x i))) (c i) = 1#1 := h i
  rw [hc i, ofBits_inf] at hi
  exact isFin_of_abs_lt_top (lt_of_cmp_olt hi)

/-- If the printed precondition evaluates to all ones on two arrays of extended reals, both arrays are finite. -/
theorem finite_of_pre [Cert.Pre_finite_inputs.Facts]
    (x0 x1 : FVec Ideal Cert.Pre_finite_inputs.S8x2048x512 .f32)
    (h : Cert.Pre_finite_inputs.fn (F := Ideal) x0 x1 = fun _ => 1#1) : AllFin x0 ∧ AllFin x1 := by
  -- the result has the one index of a rank-zero array; read the claim there
  have h0 := congrFun h ValueIdx.ix0
  dsimp only [Cert.Pre_finite_inputs.fn] at h0
  haveI : Subsingleton Cert.Pre_finite_inputs.S_.Idx := ⟨fun a b => funext fun d => d.elim0⟩
  -- a conjunction of two words is one exactly when both are
  obtain ⟨ha, hb⟩ := IntOp.andi_eq_one.1 h0
  -- a conjunction over all entries that is one had a one at every entry
  exact ⟨allFin_of_abs_lt_inf x0 _ (fun _ => rfl) (Host.reduce_andi_all _ _ _ _ _ ha),
    allFin_of_abs_lt_inf x1 _ (fun _ => rfl) (Host.reduce_andi_all _ _ _ _ _ hb)⟩

end Cert.Attn

end
-- ==== Proof.lean ====
/-
  Streaming ("flash") attention against one-pass softmax attention, over the extended reals.

  Both programs take an encoder array E and a decoder array Q, each [8, 2048, 512], and return, for batch element
  b, query row q and feature d,
      Σₖ softmax_k (Σ_d' Q[b,q,d'] · E[b,k,d']) · E[b,k,d].
  The reference computes it in one pass over the 2048 keys: the row maximum M, the weights exp (score − M), their
  sum L, the quotient, the product with E. The kernel streams the keys in two blocks of 1024 per batch element,
  carrying a running maximum, a running denominator and a running weighted sum between the two grid points of a
  batch element, rescaling the old quantities by exp (old maximum − new maximum) at each step, and multiplies by
  1 / L at the end. Read exactly, the kernel's result array is the streaming form (`Cert.Attn.attendOnline`:
  modules Steps, Rows, Blocks) and the reference's the one-pass form (`Cert.Attn.attend`: module Reference); the
  two forms agree when every entry of E and Q is a real number (module Softmax: exp x · exp y = exp (x + y), and
  distributivity over a positive denominator), which is what the precondition says (module Finite).
  The three frames are the generated runs; nothing was rewritten between the kernel and its idealization.
-/
import proofs.«427594_j86251533238989_3_alg».proof.Defs
import proofs.«427594_j86251533238989_3_alg».proof.Proof.Gen.Kernel
import proofs.«427594_j86251533238989_3_alg».proof.Proof.Gen.Kernel.Skeleton
import proofs.«427594_j86251533238989_3_alg».proof.Proof.Gen.Kernel.Launch
import proofs.«427594_j86251533238989_3_alg».proof.Proof.Gen.Kernel.Points
import proofs.«427594_j86251533238989_3_alg».proof.Proof.Gen.Kernel.Frame
import proofs.«427594_j86251533238989_3_alg».proof.Proof.Gen.KernelIdeal
import proofs.«427594_j86251533238989_3_alg».proof.Proof.Gen.KernelIdeal.Skeleton
import proofs.«427594_j86251533238989_3_alg».proof.Proof.Gen.KernelIdeal.Launch
import proofs.«427594_j86251533238989_3_alg».proof.Proof.Gen.KernelIdeal.Points
import proofs.«427594_j86251533238989_3_alg».proof.Proof.Gen.KernelIdeal.Frame
import proofs.«427594_j86251533238989_3_alg».proof.Proof.Gen.KernelIdeal.Value
import proofs.«427594_j86251533238989_3_alg».proof.Proof.Gen.ReferenceIdeal
import proofs.«427594_j86251533238989_3_alg».proof.Proof.Gen.ReferenceIdeal.Run
import proofs.«427594_j86251533238989_3_alg».proof.Proof.Gen.ReferenceIdeal.Read
import proofs.«427594_j86251533238989_3_alg».proof.Proof.Gen.Pre_finite_inputs
import proofs.«427594_j86251533238989_3_alg».proof.Proof.Blocks
import proofs.«427594_j86251533238989_3_alg».proof.Proof.Reference
import proofs.«427594_j86251533238989_3_alg».proof.Proof.Finite
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- The idealized kernel runs and leaves its arguments unchanged. -/
theorem frame_kernelIdeal : Cert.frame_KernelIdeal := fun m ρ _ => Cert.KernelIdeal.Gen.frame m ρ

/-- The reference runs and leaves its arguments unchanged: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Over the extended reals the kernel's result array is the streaming form of attention and the reference's the
    one-pass form, of arguments that agree and are finite: one array. -/
theorem algebraic : Cert.algebraic_KernelIdeal_ReferenceIdeal := by
  intro m ρ m' ρ' hpre hagree
  refine ⟨fun c => Cert.Attn.attendOnline (m ((c.tc : Thread Cert.KernelIdeal.nD Cert.KernelIdeal.τ).loc Cert.KernelIdeal.main_arg1))
      (m ((c.tc : Thread Cert.KernelIdeal.nD Cert.KernelIdeal.τ).loc Cert.KernelIdeal.main_arg0)),
    Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  obtain ⟨hE, hQ⟩ := Cert.Attn.finite_of_pre _ _ (hpre c)
  exact (Cert.ReferenceIdeal.Read.val_main_v12_eq _ _).trans
    ((Cert.Attn.reference_eq _ _).trans (Cert.Attn.attendOnline_eq hQ hE).symm)

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
